-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x64 : Shape := ⟨4, ![8, 512, 512, 64]⟩
abbrev S8x512x512 : Shape := ⟨3, ![8, 512, 512]⟩
abbrev S_ : Shape := ⟨0, ![]⟩

class Facts : Prop where
  bcast_S_S8x512x512x64 : S_.BroadcastsInDim S8x512x512x64 (![] : Fin 0 → Fin S8x512x512x64.rank)
  reducesTo_S8x512x512x64_S_d0_1_2_3 : S8x512x512x64.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x512x512x64 .f32) (main_arg1 : IVec S8x512x512 32) : IVec S_ 1 :=
  let main_v0 : FVec F S8x512x512x64 .f32 := Host.absf main_arg0
  let main_cst : FVec F S_ .f32 := constant S_ .f32 0x7F800000#32
  let main_v1 : FVec F S8x512x512x64 .f32 := broadcastInDim S8x512x512x64 ![] bcast_S_S8x512x512x64 main_cst
  let main_v2 : IVec S8x512x512x64 1 := cmpf .olt main_v0 main_v1
  let main_c : IVec S_ 1 := constantI S_ 1 1#1
  let main_v3 : IVec S_ 1 := (fun x v => Host.reduce IntOp.andi x v reducesTo_S8x512x512x64_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  let main_c_2 : IVec S_ 32 := constantI S_ 32 256#32
  let main_v8 : IVec S8x512x512 32 := broadcastInDim S8x512x512 ![] bcast_S_S8x512x512 main_c_2
  let main_v9 : IVec S8x512x512 1 := cmpi .slt main_arg1 main_v8
  let main_c_3 : IVec S_ 1 := constantI S_ 1 1#1
  let main_v10 : IVec S_ 1 := (fun x v => Host.reduce IntOp.andi x v reducesTo_S8x512x512_S_d0_1_2 h_S_) main_v9 main_c_3
  let main_v11 : IVec S_ 1 := andi main_v7 main_v10
  main_v11
-- ==== Kernel.lean ====
abbrev S8x512x512x64 : Shape := ⟨4, ![8, 512, 512, 64]⟩
abbrev S8x512x512 : Shape := ⟨3, ![8, 512, 512]⟩
abbrev S8x262144x64 : Shape := ⟨3, ![8, 262144, 64]⟩
abbrev S2097152 : Shape := ⟨1, ![2097152]⟩
abbrev S8x256x64 : Shape := ⟨3, ![8, 256, 64]⟩
abbrev S1x8192x64 : Shape := ⟨3, ![1, 8192, 64]⟩
abbrev S8192 : Shape := ⟨1, ![8192]⟩
abbrev S1x256x64 : Shape := ⟨3, ![1, 256, 64]⟩
abbrev S256x64 : Shape := ⟨2, ![256, 64]⟩
abbrev S256x1 : Shape := ⟨2, ![256, 1]⟩
abbrev S256x8192 : Shape := ⟨2, ![256, 8192]⟩
abbrev S1x8192 : Shape := ⟨2, ![1, 8192]⟩
abbrev S8192x64 : Shape := ⟨2, ![8192, 64]⟩
abbrev S8192x1 : Shape := ⟨2, ![8192, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x512x512x64, .f32⟩
  | .hbm, ⟨1, _⟩ => ⟨S8x512x512, .i32⟩
  | .hbm, ⟨2, _⟩ => ⟨S8x262144x64, .f32⟩
  | .hbm, ⟨3, _⟩ => ⟨S2097152, .i32⟩
  | .hbm, ⟨4, _⟩ => ⟨S8x256x64, .f32⟩
  | .local _ .vmem, ⟨0, _⟩ => ⟨S1x8192x64, .f32⟩
  | .local _ .vmem, ⟨1, _⟩ => ⟨S1x8192x64, .f32⟩
  | .local _ .vmem, ⟨2, _⟩ => ⟨S8192, .i32⟩
  | .local _ .vmem, ⟨3, _⟩ => ⟨S8192, .i32⟩
  | .local _ .vmem, ⟨4, _⟩ => ⟨S1x256x64, .f32⟩
  | .local _ .vmem, ⟨5, _⟩ => ⟨S1x256x64, .f32⟩
  | .local _ .vmem, ⟨6, _⟩ => ⟨S256x64, .f32⟩
  | .local _ .vmem, ⟨7, _⟩ => ⟨S256x1, .f32⟩
  | _, _ => ⟨S8x512x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_14 : BitVec 32 := 0#32
  let v30 : BitVec 1 := Scalar.cmpi .ne v29 c0_i32_14
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x512x64_S8x262144x64 : S8x512x512x64.ShapeCasts S8x262144x64
  shapeCasts_S8x512x512_S2097152 : S8x512x512.ShapeCasts S2097152
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S8192_S8192_0 : ∀ a, (![0] : Fin 1 → Nat) a + S8192.size a ≤ S8192.size a
  h_S8192 : 0 < S8192.numel
  shapeCasts_S8192_S8192 : S8192.ShapeCasts S8192
  iota_S256x8192_d0_w32 : S256x8192.Iotas .tc 32 [0]
  shapeCasts_S8192_S1x8192 : S8192.ShapeCasts S1x8192
  broadcasts_S1x8192_S256x8192 : S1x8192.Broadcasts S256x8192
  natLt_1_32 : 1 < 32
  bitsLt_bf16_f32 : FTy.bits .bf16 < FTy.bits .f32
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x8192_S8192x64_S256x64_1_0_0_1_n_n_wf : DotDims.WF S256x8192 S8192x64 S256x64 [1] [0] [0] [1] [] []
  dot_S256x8192_S8192x1_S256x1_1_0_0_1_n_n_wf : DotDims.WF S256x8192 S8192x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S8x262144x64.size a
  hwx0_0 : ∀ i : grid0.Coords, EltTy.bits .f32 = 32 ∨ (Rect.block (s := S8x262144x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S2097152.size a
  hwx0_1 : ∀ i : grid0.Coords, EltTy.bits .i32 = 32 ∨ (Rect.block (s := S2097152) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S8x256x64.size a
  hwx0_2 : ∀ i : grid0.Coords, EltTy.bits .f32 = 32 ∨ (Rect.block (s := S8x256x64) S1x256x64.size (cc0_transform_2 i) (hinb0_2 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x8192_S8192x1_S256x1_1_0_0_1_n_n : DotDims S256x8192 S8192x1 S256x1 where
  lhsContracting := [1]
  rhsContracting := [0]
  lhsNonContracting := [0]
  rhsNonContracting := [1]
  lhsBatch := []
  rhsBatch := []
  wf := dot_S256x8192_S8192x1_S256x1_1_0_0_1_n_n_wf

abbrev win0_0 : Pipeline.Window sig grid0 :=
  Pipeline.Window.ofSpec (Memref.whole main_v0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x512x64 : Shape := ⟨4, ![8, 512, 512, 64]⟩
abbrev S8x512x512 : Shape := ⟨3, ![8, 512, 512]⟩
abbrev S2097152x64 : Shape := ⟨2, ![2097152, 64]⟩
abbrev S8 : Shape := ⟨1, ![8]⟩
abbrev S8x1x1 : Shape := ⟨3, ![8, 1, 1]⟩
abbrev S_ : Shape := ⟨0, ![]⟩
abbrev S2097152 : Shape := ⟨1, ![2097152]⟩
abbrev S2048x64 : Shape := ⟨2, ![2048, 64]⟩
abbrev S2097152x1 : Shape := ⟨2, ![2097152, 1]⟩
abbrev S2048 : Shape := ⟨1, ![2048]⟩
abbrev S2048x1 : Shape := ⟨2, ![2048, 1]⟩
abbrev S8x256x64 : Shape := ⟨3, ![8, 256, 64]⟩

abbrev nBuf : Space → Nat
  | .hbm => 28
  | .vmem => 0
  | .smem => 0
  | _ => 0

abbrev bufTy : (tb : Table) → Fin (tcTables nBuf tb) → BufTy
  | .hbm, ⟨0, _⟩ => ⟨S8x512x512x64, .f32⟩
  | .hbm, ⟨1, _⟩ => ⟨S8x512x512, .i32⟩
  | .hbm, ⟨2, _⟩ => ⟨S2097152x64, .f32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i32⟩
  | .hbm, ⟨8, _⟩ => ⟨S8x512x512, .i32⟩
  | .hbm, ⟨9, _⟩ => ⟨S8x512x512, .i32⟩
  | .hbm, ⟨10, _⟩ => ⟨S2097152, .i32⟩
  | .hbm, ⟨11, _⟩ => ⟨S_, .f32⟩
  | .hbm, ⟨12, _⟩ => ⟨S2048x64, .f32⟩
  | .hbm, ⟨13, _⟩ => ⟨S2097152x1, .i32⟩
  | .hbm, ⟨14, _⟩ => ⟨S2048x64, .f32⟩
  | .hbm, ⟨15, _⟩ => ⟨S_, .f32⟩
  | .hbm, ⟨16, _⟩ => ⟨S2097152, .f32⟩
  | .hbm, ⟨17, _⟩ => ⟨S_, .f32⟩
  | .hbm, ⟨18, _⟩ => ⟨S2048, .f32⟩
  | .hbm, ⟨19, _⟩ => ⟨S2097152x1, .i32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1, .f32⟩
  | .hbm, ⟨25, _⟩ => ⟨S2048x64, .f32⟩
  | .hbm, ⟨26, _⟩ => ⟨S2048x64, .f32⟩
  | .hbm, ⟨27, _⟩ => ⟨S8x256x64, .f32⟩
  | _, _ => ⟨S8x512x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S8x512x512x64_S2097152x64 : S8x512x512x64.ShapeCasts S2097152x64
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S_S2048x64 : S_.BroadcastsInDim S2048x64 (![] : Fin 0 → Fin S2048x64.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2048x64_S8x256x64 : S2048x64.ShapeCasts S8x256x64
  scatter_S2048x64_S2097152x1_S2097152x64_1_0_0_1_wf : ScatterDims.WF S2048x64 S2097152x1 S2097152x64 [1] [0] [0] 1
  scatter_S2048_S2097152x1_S2097152_n_0_0_1_wf : ScatterDims.WF S2048 S2097152x1 S2097152 [] [0] [0] 1

variable [Facts₀]

def scatter_S2048x64_S2097152x1_S2097152x64_1_0_0_1 : ScatterDims S2048x64 S2097152x1 S2097152x64 where
  updateWindowDims := [1]
  insertedWindowDims := [0]
  scatterDimsToOperandDims := [0]
  indexVectorDim := 1
  wf := scatter_S2048x64_S2097152x1_S2097152x64_1_0_0_1_wf
def scatter_S2048_S2097152x1_S2097152_n_0_0_1 : ScatterDims S2048 S2097152x1 S2097152 where
  updateWindowDims := []
  insertedWindowDims := [0]
  scatterDimsToOperandDims := [0]
  indexVectorDim := 1
  wf := scatter_S2048_S2097152x1_S2097152_n_0_0_1_wf

class Facts : Prop extends Facts₀ where

variable [Facts]
-- ==== Proof.KernelPieces.lean ====
/-
  What each control case of the segment-mean kernel leaves behind, as values of what it read.

  The body keeps two accumulators across the 32 row tiles of one image: per-segment channel sums [256, 64] and
  per-segment row counts [256, 1]. At a tile it adds to the sums the product of the tile's one-hot label matrix
  [256, 8192] with the tile's rows [8192, 64], and to the counts the product of the same matrix with a column of
  ones. On the first tile of an image both accumulators are first set to zero; on the last tile the quotient
  sums / max(counts, 1) is written to the image's output block. So: on a first tile the accumulators end at
  (zero + tile term), on every other tile at (previous + tile term), and the last tile's output block is the
  quotient of the two accumulators as that same tile leaves them.
-/
import proofs.«402605_j50663434223993_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- First tile of an image: the sums are reset, then the tile's term is added to the zero block. -/
theorem sums_first (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : cond0_0 i) (hc1 : ¬cond0_1 i) (x0 : Vec F S1x8192x64 .f32) (x1 : Vec F S8192 .i32) :
    sout0_A_0 c i arg2 harg2 arg3 harg3 arg4 harg4 arg5 harg5 arg6 harg6 hc0 hc1 x0 x1 = k0_pay4 x1 x0 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S256x64) zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- First tile of an image: the counts are reset, then the tile's label counts are added to the zero column. -/
theorem counts_first (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : cond0_0 i) (hc1 : ¬cond0_1 i) (x0 : Vec F S1x8192x64 .f32) (x1 : Vec F S8192 .i32) :
    sout0_A_1 c i arg2 harg2 arg3 harg3 arg4 harg4 arg5 harg5 arg6 harg6 hc0 hc1 x0 x1 = k0_pay5 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S256x1) zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- A middle tile: the sums grow by the tile's term. -/
theorem sums_middle (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : ¬cond0_0 i) (hc1 : ¬cond0_1 i) (x0 : Vec F S1x8192x64 .f32) (x1 : Vec F S8192 .i32) (xs0 : Vec F S256x64 .f32) (xs1 : Vec F S256x1 .f32) :
    sout0_B_0 c i arg2 harg2 arg3 harg3 arg4 harg4 arg5 harg5 arg6 harg6 hc0 hc1 x0 x1 xs0 xs1 = k0_pay4 x1 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- A middle tile: the counts grow by the tile's label counts. -/
theorem counts_middle (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : ¬cond0_0 i) (hc1 : ¬cond0_1 i) (x0 : Vec F S1x8192x64 .f32) (x1 : Vec F S8192 .i32) (xs0 : Vec F S256x64 .f32) (xs1 : Vec F S256x1 .f32) :
    sout0_B_1 c i arg2 harg2 arg3 harg3 arg4 harg4 arg5 harg5 arg6 harg6 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- The last tile of an image: the sums grow by the tile's term, -/
theorem sums_last (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : ¬cond0_0 i) (hc1 : cond0_1 i) (x0 : Vec F S1x8192x64 .f32) (x1 : Vec F S8192 .i32) (xs0 : Vec F S256x64 .f32) (xs1 : Vec F S256x1 .f32) :
    sout0_C_0 c i arg2 harg2 arg3 harg3 arg4 harg4 arg5 harg5 arg6 harg6 hc0 hc1 x0 x1 xs0 xs1 = k0_pay4 x1 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- the counts by the tile's label counts, -/
theorem counts_last (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : ¬cond0_0 i) (hc1 : cond0_1 i) (x0 : Vec F S1x8192x64 .f32) (x1 : Vec F S8192 .i32) (xs0 : Vec F S256x64 .f32) (xs1 : Vec F S256x1 .f32) :
    sout0_C_1 c i arg2 harg2 arg3 harg3 arg4 harg4 arg5 harg5 arg6 harg6 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero zero2]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

/-- and the output block is the quotient of the two accumulators as this tile leaves them. -/
theorem block_last (c : Dev nD) (i : grid0.Coords) (arg2 : Memref sig .tc .vmem S1x8192x64 .f32) (harg2 : arg2.IsWhole) (arg3 : Memref sig .tc .vmem S8192 .i32) (harg3 : arg3.IsWhole) (arg4 : Memref sig .tc .vmem S1x256x64 .f32) (harg4 : arg4.IsWhole) (arg5 : Memref sig .tc .vmem S256x64 .f32) (harg5 : arg5.IsWhole) (arg6 : Memref sig .tc .vmem S256x1 .f32) (harg6 : arg6.IsWhole) (hc0 : ¬cond0_0 i) (hc1 : cond0_1 i) (x0 : Vec F S1x8192x64 .f32) (x1 : Vec F S8192 .i32) (xs0 : Vec F S256x64 .f32) (xs1 : Vec F S256x1 .f32) :
    out0_C_2 c i arg2 harg2 arg3 harg3 arg4 harg4 arg5 harg5 arg6 harg6 hc0 hc1 x0 x1 xs0 xs1 = k0_pay6 (k0_pay5 x1 xs1) (k0_pay4 x1 x0 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero zero3]
  simp only [View.readAt_eq_ld, harg2.read_unread, harg3.read_unread, harg5.read_unread, harg6.read_unread,
    View.readCov_unit_zero (S := S256x64) _ zero2, View.readCov_unit_zero (S := S256x1) _ zero2,
    View.ld_unit_zero (S := S8192) zero1, View.ld_unit_zero (S := S1x8192x64) zero3,
    View.ld_unit_zero (S := S256x64) zero2, View.ld_unit_zero (S := S256x1) zero2]

end Cert.KernelIdeal.Pieces

end
-- ==== Proof.LibMatmulPlain.lean ====
/-
  A plain matrix product on the matrix unit, read at one entry, at the ideal instance.

  `tpu.matmul` of an [m, k] matrix by a [k, n] matrix into the zero accumulator, the left operand contracted on its
  columns and the right on its rows: entry (a, b) of the result is the sum over c of A(a, c) · B(c, b), an exact sum
  of exact products over the extended reals (`matmul_plain_zero_apply`). Two reshapes of one array agree wherever
  the two indices have the same row-major position (`shapeCast_eq_shapeCast`).
-/
import Idealize.ShloMosaic.PureOps.Ideal.Laws
import Idealize.ShloMosaic.Lib.ValueIdx
import Idealize.ShloMosaic.Lib.Pipeline.Value

noncomputable section

open scoped BigOperators

namespace Cert.Lib.MatmulPlain

open Idealize.ShloMosaic Idealize.ShloMosaic.ValueIdx

/-- THE PLAIN PRODUCT INTO ZERO READ AT (a, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- Two reshapes of one array read the same element where the two indices have the same row-major position. -/
theorem shapeCast_eq_shapeCast {s t u : Shape} {α : Type} (x : s.Idx → α) (ht : s.ShapeCasts t) (hu : s.ShapeCasts u)
    (j : t.Idx) (k : u.Idx) (hk : (u.rowMajor k).val = (t.rowMajor j).val) : shapeCast t x ht j = shapeCast u x hu k := by
  unfold shapeCast
  refine congrArg x (Shape.reshapeEquiv_eq_of_rowMajor _ ?_)
  rw [Shape.rowMajor_reshapeEquiv]
  exact hk

end Cert.Lib.MatmulPlain

end
-- ==== Proof.Consts.lean ====
/-
  The float constants the two programs spell, as the extended reals their bit patterns denote at the ideal instance:
  the f32 word of 1.0 (the floor under a segment's count, and the reference's per-row count) and the bf16 word of 1.0
  (the entries of the kernel's column of ones). Both denote 1. Stated once, here, for every module that needs them.
-/
import Idealize.ShloMosaic.PureOps.Ideal

noncomputable section

namespace Cert.Consts

open Idealize.ShloMosaic

/-- The f32 pattern `0x3F800000` denotes 1. -/
theorem ofBits_f32_one : Ideal.ofBits .f32 0x3F800000#32 = 1 := by
  simp [Ideal.ofBits, Ideal.ieee, -EReal.coe_mul]; norm_num

/-- The bf16 pattern `0x3F80` denotes 1. -/
theorem ofBits_bf16_one : Ideal.ofBits .bf16 0x3F80#16 = 1 := by
  simp [Ideal.ofBits, Ideal.ieee, -EReal.coe_mul]; norm_num

end Cert.Consts

end
-- ==== Proof.KernelTile.lean ====
/-
  One tile's contribution, entry by entry, over the extended reals.

  At a tile the body builds the one-hot matrix of the tile's 8192 labels against the 256 segment numbers: entry (s, k)
  is 1 if row k of the tile carries label s and 0 otherwise (a compare of words, widened and converted: exactly 1 or
  exactly 0). Its product with the tile's rows adds to segment s, channel ch, the sum over k of (one-hot · row k's
  channel ch); its product with a column of ones adds to segment s's count the sum over k of (one-hot · 1). The
  last tile's output entry (s, ch) is the sum accumulator over the count accumulator, the count raised to at least 1.
-/
import proofs.«402605_j50663434223993_3_alg».proof.Proof.Gen.KernelIdeal.Skeleton
import proofs.«402605_j50663434223993_3_alg».proof.Proof.LibMatmulPlain
import proofs.«402605_j50663434223993_3_alg».proof.Proof.Consts
import Idealize.ShloMosaic.Lib.ValueLayout
import Idealize.ShloMosaic.Lib.Pipeline.Value
import Idealize.ShloMosaic.Lib.StableHlo.Predicate

noncomputable section

open scoped BigOperators

namespace Cert.KernelIdeal.Tile

open Cert.KernelIdeal Cert.KernelIdeal.Gen Idealize.ShloMosaic Idealize.ShloMosaic.ValueIdx Cert.Lib.MatmulPlain

/-- A word compare for equality, widened to 32 bits and converted to a float, is exactly 1 or exactly 0. -/
theorem onehot_word (a b : BitVec 32) :
    ((((IntOp.cmpi .eq a b).setWidth 32).toInt : ℝ) : EReal) = if a = b then 1 else 0 := by
  by_cases h : a = b
  · rw [if_pos h, StableHlo.Predicate.cmpi_eq_iff.mpr h]
    simp
  · rw [if_neg h, eq_zero_of_ne_one (mt StableHlo.Predicate.cmpi_eq_iff.mp h)]
    simp

/-- The one-hot matrix at (s, k): does row k of the tile carry label s? -/
theorem onehot_apply (x1 : Vec Ideal S8192 .i32) (s : Fin 256) (k : Fin 8192) :
    (k0_pay3 (F := Ideal) x1) (ix2 s k) = if BitVec.ofNat 32 s.val = x1 (ix1 k) then 1 else 0 := by
  unfold k0_pay3
  dsimp only
  rw [truncf_apply, sitofp_apply, extui_apply]
  show ((((IntOp.cmpi .eq (iota Kind.tc S256x8192 32 [0] iota_S256x8192_d0_w32 (ix2 s k))
    (broadcastTo S256x8192 (shapeCast S1x8192 (shapeCast S8192 x1 shapeCasts_S8192_S8192) shapeCasts_S8192_S1x8192)
      broadcasts_S1x8192_S256x8192 (ix2 s k))).setWidth 32).toInt : ℝ) : EReal) = _
  rw [iota_single_apply, broadcastTo_1b_ab_apply, shapeCast_a_1a_apply, shapeCast_self, onehot_word]

/-- The sum accumulator after a tile: what it held, plus the tile's one-hot matrix times the tile's rows. -/
theorem sums_step_apply (x1 : Vec Ideal S8192 .i32) (x0 : Vec Ideal S1x8192x64 .f32) (acc : Vec Ideal S256x64 .f32)
    (s : Fin 256) (ch : Fin 64) :
    k0_pay4 (F := Ideal) x1 x0 acc (ix2 s ch)
      = acc (ix2 s ch) + ∑ k : Fin 8192, (if BitVec.ofNat 32 s.val = x1 (ix1 k) then (1 : EReal) else 0) * x0 (ix3 (0 : Fin 1) k ch) := by
  unfold k0_pay4
  rw [shapeCast_self, addf_apply]
  refine congrArg (acc (ix2 s ch) + ·) ?_
  show FloatOps.matmul (DotDims.plain 256 8192 64) none (k0_pay3 x1)
    (truncf FTy.bf16 (shapeCast S8192x64 x0 shapeCasts_S1x8192x64_S8192x64) bitsLt_bf16_f32)
    (constant (F := Ideal) ⟨2, ![256, 64]⟩ .f32 0x00000000#32) (ix2 s ch) = _
  rw [matmul_plain_zero_apply]
  refine Finset.sum_congr rfl fun k _ => ?_
  rw [onehot_apply, truncf_apply, shapeCast_1ab_ab_apply]

/-- The count accumulator after a tile: what it held, plus the tile's one-hot matrix times a column of ones. -/
theorem counts_step_apply (x1 : Vec Ideal S8192 .i32) (acc : Vec Ideal S256x1 .f32) (s : Fin 256) (u : Fin 1) :
    k0_pay5 (F := Ideal) x1 acc (ix2 s u)
      = acc (ix2 s u) + ∑ k : Fin 8192, (if BitVec.ofNat 32 s.val = x1 (ix1 k) then (1 : EReal) else 0) := by
  unfold k0_pay5
  rw [shapeCast_self, addf_apply]
  refine congrArg (acc (ix2 s u) + ·) ?_
  show FloatOps.matmul (DotDims.plain 256 8192 1) none (k0_pay3 x1)
    (broadcast S8192x1 (Scalar.ofBits (F := Ideal) .bf16 0x3F80#16))
    (constant (F := Ideal) ⟨2, ![256, 1]⟩ .f32 0x00000000#32) (ix2 s u) = _
  rw [matmul_plain_zero_apply]
  refine Finset.sum_congr rfl fun k _ => ?_
  rw [onehot_apply, broadcast_apply]
  show _ * Ideal.ofBits .bf16 0x3F80#16 = _
  rw [Cert.Consts.ofBits_bf16_one, mul_one]

/-- The last tile's output entry: the sum accumulator over the count accumulator raised to at least 1. -/
theorem quotient_apply (cnt : Vec Ideal S256x1 .f32) (sums : Vec Ideal S256x64 .f32) (u : Fin 1) (s : Fin 256) (ch : Fin 64) :
    k0_pay6 (F := Ideal) cnt sums (ix3 u s ch) = Ideal.div (sums (ix2 s ch)) (max (cnt (ix2 s (0 : Fin 1))) 1) := by
  unfold k0_pay6
  rw [shapeCast_ab_1ab_apply, divf_apply]
  rw [broadcastTo_apply _ broadcasts_S256x1_S256x64 (ix2 s ch) (ix2 s (0 : Fin 1)) (fun a => by
    match a with
    | ⟨0, _⟩ => show s.val = if (256 : ℕ) = 1 then 0 else s.val; rw [if_neg (by decide)]
    | ⟨1, _⟩ => show 0 = if (1 : ℕ) = 1 then 0 else ch.val; rw [if_pos rfl])]
  rw [maximumf_apply, broadcast_apply]
  show Ideal.div _ (max _ (Ideal.ofBits .f32 0x3F800000#32)) = _
  rw [Cert.Consts.ofBits_f32_one]

end Cert.KernelIdeal.Tile

end
-- ==== Proof.SegmentMath.lean ====
/-
  Finite sums over row numbers, cut into tiles and into images.

  The rows of all images are numbered consecutively: image `b` holds rows `b * 262144 … b * 262144 + 262143`, and a tile
  is 8192 consecutive rows. Summing over all rows of a range is summing tile by tile (`sum_range_tiles`). A sum over
  all rows of all eight images that keeps only the rows whose key `image * 256 + label` equals `b * 256 + s` keeps
  exactly the rows of image `b` labelled `s`, as long as every label is below 256 (`sum_select_image`): two keys with
  labels below 256 are equal only if image and label both agree.
-/
import Mathlib.Algebra.BigOperators.Intervals
import Mathlib.Algebra.BigOperators.Ring.Finset
import Mathlib.Tactic.Ring
import Mathlib.Tactic.Linarith

open scoped BigOperators

namespace Cert.SegmentMath

variable {M : Type*} [AddCommMonoid M]

/-- A sum over `n * T` consecutive naturals is the sum, tile by tile, over `n` tiles of `T`. -/
theorem sum_range_tiles (g : ℕ → M) (T : ℕ) :
    ∀ n : ℕ, ∑ r ∈ Finset.range (n * T), g r = ∑ j ∈ Finset.range n, ∑ k ∈ Finset.range T, g (j * T + k)
  | 0 => by simp
  | n + 1 => by
    rw [Nat.succ_mul, Finset.sum_range_add, sum_range_tiles g T n, Finset.sum_range_succ]

/-- Keeping, among all rows of all eight images, those whose key `image * 256 + label` is `b * 256 + s` keeps the rows
    of image `b` with label `s`, when every label is below 256. -/
theorem sum_select_image (lab : ℕ → ℕ) (hl : ∀ e, e < 2097152 → lab e < 256) (g : ℕ → M) (b s : ℕ) (hb : b < 8) (hs : s < 256) :
    ∑ e ∈ Finset.range 2097152, (if e / 262144 * 256 + lab e = b * 256 + s then g e else 0)
      = ∑ r ∈ Finset.range 262144, if lab (b * 262144 + r) = s then g (b * 262144 + r) else 0 := by
  have h8 : (2097152 : ℕ) = 8 * 262144 := by norm_num
  rw [h8, sum_range_tiles, Finset.sum_eq_single b]
  · refine Finset.sum_congr rfl fun r hr => ?_
    have hr' : r < 262144 := Finset.mem_range.mp hr
    have hdiv : (b * 262144 + r) / 262144 = b := by omega
    rw [hdiv]
    refine if_congr ?_ rfl rfl
    constructor <;> intro h <;> omega
  · intro b' hb' hne
    refine Finset.sum_eq_zero fun r hr => ?_
    have hr' : r < 262144 := Finset.mem_range.mp hr
    have hb8 : b' < 8 := Finset.mem_range.mp hb'
    have hdiv : (b' * 262144 + r) / 262144 = b' := by omega
    have hlab := hl (b' * 262144 + r) (by omega)
    rw [hdiv, if_neg]
    omega
  · intro h
    exact absurd (Finset.mem_range.mpr hb) h

end Cert.SegmentMath
-- ==== Proof.Spec.lean ====
/-
  The segment mean both programs compute, as one function of the flattened inputs.

  The feature map is read as 2097152 rows of 64 channels (image `b` owns rows `b * 262144 …`), the label map as 2097152
  labels, one per row. For image `b`, label `s` and channel `ch` the result is

      (sum over the rows of image b labelled s of the row's channel ch) / max(number of those rows, 1),

  with the sum and the count taken over the extended reals: a row that is not selected contributes an exact 0, a
  selected row contributes itself, or 1 to the count. The kernel reaches the sum tile by tile (`segSum_tiles`,
  `segCount_tiles`), the reference by scattering every row of every image to the key `image * 256 + label`
  (`segSum_select`, `segCount_select`: with labels below 256 only image b's rows labelled s land on `b * 256 + s`).
-/
import Idealize.ShloMosaic.PureOps.Ideal
import Idealize.ShloMosaic.Lib.ValueIdx
import proofs.«402605_j50663434223993_3_alg».proof.Proof.SegmentMath

noncomputable section

open scoped BigOperators

namespace Cert.SegMean

open Idealize.ShloMosaic Idealize.ShloMosaic.ValueIdx

/-- The feature map as rows of channels, the label map as one label per row, the result as [image, label, channel]. -/
abbrev Rows : Shape := ⟨2, ![2097152, 64]⟩
abbrev Labels : Shape := ⟨1, ![2097152]⟩
abbrev Means : Shape := ⟨3, ![8, 256, 64]⟩

/-- Row number `e` as a coordinate (every row number the sums below use is in range). -/
def rowIx (e : ℕ) : Fin 2097152 := ⟨e % 2097152, Nat.mod_lt _ (by norm_num)⟩

theorem rowIx_val {e : ℕ} (h : e < 2097152) : (rowIx e).val = e := Nat.mod_eq_of_lt h

theorem rowIx_eq {e : ℕ} (h : e < 2097152) : rowIx e = ⟨e, h⟩ := Fin.ext (rowIx_val h)

variable (xf : Rows.Idx → EReal) (lab : Labels.Idx → BitVec 32)

/-- Row `e`'s label, as a natural number. -/
def labelAt (e : ℕ) : ℕ := (lab (ix1 (rowIx e))).toNat

/-- What row `e` adds to label `s`'s sum on channel `ch`: itself if it carries that label, else nothing. -/
def rowTerm (s : ℕ) (ch : Fin 64) (e : ℕ) : EReal := if labelAt lab e = s then xf (ix2 (rowIx e) ch) else 0

/-- What row `e` adds to label `s`'s count. -/
def rowUnit (s : ℕ) (e : ℕ) : EReal := if labelAt lab e = s then 1 else 0

/-- The sum of image `b`'s rows labelled `s`, on channel `ch`. -/
def segSum (b s : ℕ) (ch : Fin 64) : EReal := ∑ r ∈ Finset.range 262144, rowTerm xf lab s ch (b * 262144 + r)

/-- The number of image `b`'s rows labelled `s`. -/
def segCount (b s : ℕ) : EReal := ∑ r ∈ Finset.range 262144, rowUnit lab s (b * 262144 + r)

/-- THE RESULT: per image, label and channel, the sum over the count, an empty label's count read as 1. -/
def mean : Means.Idx → EReal := fun i =>
  Ideal.div (segSum xf lab (i 0).val (i 1).val (i 2)) (max (segCount lab (i 0).val (i 1).val) 1)

/-- Image `b`'s sum, taken over its 32 tiles of 8192 rows; tile `j` of image `b` is tile `32 * b + j` of all rows. -/
theorem segSum_tiles (b s : ℕ) (ch : Fin 64) :
    ∑ j ∈ Finset.range 32, ∑ k ∈ Finset.range 8192, rowTerm xf lab s ch ((32 * b + j) * 8192 + k) = segSum xf lab b s ch := by
  unfold segSum
  have h := Cert.SegmentMath.sum_range_tiles (fun r => rowTerm xf lab s ch (b * 262144 + r)) 8192 32
  rw [show (32 * 8192 : ℕ) = 262144 from by norm_num] at h
  rw [h]
  refine Finset.sum_congr rfl fun j _ => Finset.sum_congr rfl fun k _ => congrArg _ (by ring)

/-- The same for the count. -/
theorem segCount_tiles (b s : ℕ) :
    ∑ j ∈ Finset.range 32, ∑ k ∈ Finset.range 8192, rowUnit lab s ((32 * b + j) * 8192 + k) = segCount lab b s := by
  unfold segCount
  have h := Cert.SegmentMath.sum_range_tiles (fun r => rowUnit lab s (b * 262144 + r)) 8192 32
  rw [show (32 * 8192 : ℕ) = 262144 from by norm_num] at h
  rw [h]
  refine Finset.sum_congr rfl fun j _ => Finset.sum_congr rfl fun k _ => congrArg _ (by ring)

/-- Image `b`'s sum, selected from all rows of all images by the key `image * 256 + label`. -/
theorem segSum_select (hl : ∀ e, e < 2097152 → labelAt lab e < 256) (b s : ℕ) (hb : b < 8) (hs : s < 256) (ch : Fin 64) :
    ∑ e ∈ Finset.range 2097152, (if e / 262144 * 256 + labelAt lab e = b * 256 + s then xf (ix2 (rowIx e) ch) else 0)
      = segSum xf lab b s ch :=
  Cert.SegmentMath.sum_select_image (labelAt lab) hl (fun e => xf (ix2 (rowIx e) ch)) b s hb hs

/-- The same for the count. -/
theorem segCount_select (hl : ∀ e, e < 2097152 → labelAt lab e < 256) (b s : ℕ) (hb : b < 8) (hs : s < 256) :
    ∑ e ∈ Finset.range 2097152, (if e / 262144 * 256 + labelAt lab e = b * 256 + s then (1 : EReal) else 0)
      = segCount lab b s :=
  Cert.SegmentMath.sum_select_image (labelAt lab) hl (fun _ => (1 : EReal)) b s hb hs

end Cert.SegMean

end
-- ==== Proof.KernelBlocks.lean ====
/-
  What the kernel's windows read, in terms of the flattened inputs.

  Before the kernel runs, the feature map is reshaped to [8, 262144, 64] and the label map to [2097152]. Grid point
  `t` (image `t / 32`, tile `t % 32`) reads rows `(t % 32) * 8192 …` of image `t / 32`, and labels
  `t * 8192 …` of the flat label array. Numbering the rows of all images consecutively, both are rows
  `t * 8192 + k`, k < 8192: row k of the tile's feature block is row `t * 8192 + k` of the feature map read as
  [2097152, 64], and entry k of the tile's label block is that row's label.
-/
import proofs.«402605_j50663434223993_3_alg».proof.Proof.Gen.KernelIdeal.Frame
import proofs.«402605_j50663434223993_3_alg».proof.Proof.LibMatmulPlain
import proofs.«402605_j50663434223993_3_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx Cert.SegMean Cert.Lib.MatmulPlain

variable {F : FTy → Type} [FloatOps F]
variable (m : (ℓ : Loc nD τ sig) → Buf (Elt F) ℓ)

/-- The tile's feature rows and its labels, at their literal shapes. -/
abbrev rowBlk (c : Dev nD) (t : Fin cfg0.N) : Vec F S1x8192x64 .f32 := iblk m c 0 t
abbrev labBlk (c : Dev nD) (t : Fin cfg0.N) : Vec F S8192 .i32 := iblk m c 1 t

/-- The two arguments as the programs receive them. -/
abbrev featArg (c : Dev nD) : Vec F S8x512x512x64 .f32 := m ((c : Thread nD τ).loc main_arg0)
abbrev labArg (c : Dev nD) : Vec F S8x512x512 .i32 := m ((c : Thread nD τ).loc main_arg1)

/-- The kernel finds the feature map reshaped to [8, 262144, 64], -/
theorem entry_rows (c : Dev nD) :
    (V m c main_v0 : Vec F S8x262144x64 .f32) = shapeCast S8x262144x64 (featArg m c) shapeCasts_S8x512x512x64_S8x262144x64 := by
  dsimp only [V, hostOps0]
  after_results
  rfl

/-- and the label map flattened. -/
theorem entry_labels (c : Dev nD) :
    (V m c main_v1 : Vec F S2097152 .i32) = shapeCast S2097152 (labArg m c) shapeCasts_S8x512x512_S2097152 := by
  dsimp only [V, hostOps0]
  after_results
  rfl

/-- Grid point `t` is tile `t % 32` of image `t / 32`, and flat label tile `t`. -/
theorem point_rows : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, win0_0.index t (0 : Fin 3) = t.val / 32 ∧ win0_0.index t (1 : Fin 3) = t.val % 32
    ∧ win0_0.index t (2 : Fin 3) = 0)

theorem point_labels : ∀ t : Fin cfg0.N, win0_1.index t (0 : Fin 1) = t.val :=
  (by decide +kernel : ∀ t : Fin grid0.N, win0_1.index t (0 : Fin 1) = t.val)

/-- Entry k of the tile's label block is the label of row `t * 8192 + k`. -/
theorem label_read (c : Dev nD) (t : Fin cfg0.N) (k : Fin 8192) (hL : S8x512x512.ShapeCasts Labels) :
    labBlk m c t (ix1 k) = shapeCast Labels (labArg m c) hL (ix1 (rowIx (t.val * 8192 + k.val))) := by
  have hN : t.val < 256 := lt_of_lt_of_eq t.isLt (show cfg0.N = 256 from N_0)
  unfold labBlk iblk
  rw [View.read_apply]
  show (V m c main_v1 : Vec F S2097152 .i32) (((cfg0.win 1).blk t).view.emb (ix1 k)) = _
  rw [entry_labels]
  refine shapeCast_eq_shapeCast _ _ hL _ _ ?_
  rw [Shape.rowMajor_val_one, Shape.rowMajor_val_one]
  show (rowIx (t.val * 8192 + k.val)).val = win0_1.index t 0 * 8192 + 1 * k.val
  rw [point_labels, rowIx_val (by have := k.isLt; omega)]
  omega

/-- Row k of the tile's feature block is row `t * 8192 + k` of the feature map read as [2097152, 64]. -/
theorem row_read (c : Dev nD) (t : Fin cfg0.N) (k : Fin 8192) (ch : Fin 64) (hR : S8x512x512x64.ShapeCasts Rows) :
    rowBlk m c t (ix3 (0 : Fin 1) k ch) = shapeCast Rows (featArg m c) hR (ix2 (rowIx (t.val * 8192 + k.val)) ch) := by
  have hN : t.val < 256 := lt_of_lt_of_eq t.isLt (show cfg0.N = 256 from N_0)
  unfold rowBlk iblk
  rw [View.read_apply]
  show (V m c main_v0 : Vec F S8x262144x64 .f32) (((cfg0.win 0).blk t).view.emb (ix3 (0 : Fin 1) k ch)) = _
  rw [entry_rows]
  refine shapeCast_eq_shapeCast _ _ hR _ _ ?_
  rw [Shape.rowMajor_val_two, Shape.rowMajor_val_three]
  show (rowIx (t.val * 8192 + k.val)).val * 64 + ch.val
    = ((win0_0.index t 0 * 1 + 1 * 0) * 262144 + (win0_0.index t 1 * 8192 + 1 * k.val)) * 64 + (win0_0.index t 2 * 64 + 1 * ch.val)
  rw [(point_rows t).1, (point_rows t).2.1, (point_rows t).2.2, rowIx_val (by have := k.isLt; omega)]
  have := k.isLt
  omega

end Cert.KernelIdeal.Blocks

end
-- ==== Proof.KernelValue.lean ====
/-
  The kernel's result array is the segment mean of the flattened inputs.

  Over the 32 tiles of an image the two accumulators are running totals: after tile j of image b the sum accumulator
  holds, at (s, ch), zero plus the contributions of tiles 0 … j — each the sum over the tile's rows labelled s of the
  row's channel ch — and the count accumulator holds zero plus the number of such rows. After the last tile that is
  the whole image's sum and count (32 tiles of 8192 rows are the image's 262144 rows), the block written back is
  their quotient with the count raised to at least 1, and the eight blocks written back, one per image, fill the
  result array.
-/
import proofs.«402605_j50663434223993_3_alg».proof.Proof.Gen.KernelIdeal.Value
import proofs.«402605_j50663434223993_3_alg».proof.Proof.KernelPieces
import proofs.«402605_j50663434223993_3_alg».proof.Proof.KernelTile
import proofs.«402605_j50663434223993_3_alg».proof.Proof.KernelBlocks
import proofs.«402605_j50663434223993_3_alg».proof.Proof.Spec
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.SegValue

open Cert.KernelIdeal Cert.KernelIdeal.Gen Cert.KernelIdeal.Value Idealize.ShloMosaic.ValueIdx Cert.SegMean
open Cert.KernelIdeal.Pieces Cert.KernelIdeal.Tile Cert.KernelIdeal.Blocks

variable (m : (ℓ : Loc nD τ sig) → Buf (Elt Ideal) ℓ) (ρ : Dev nD → PrngReg)

theorem rows_cast : S8x512x512x64.ShapeCasts Rows := by decide
theorem labels_cast : S8x512x512.ShapeCasts Labels := by decide

/-- The feature map as rows of channels and the label map as one label per row. -/
abbrev xf (c : Dev nD) : Rows.Idx → EReal := shapeCast Rows (featArg m c) rows_cast
abbrev lab (c : Dev nD) : Labels.Idx → BitVec 32 := shapeCast Labels (labArg m c) labels_cast

/-- A one-hot entry times a value keeps the value on the selected row and is an exact zero elsewhere. -/
theorem select_mul (s : ℕ) (hs : s < 256) (w : BitVec 32) (x : EReal) :
    (if BitVec.ofNat 32 s = w then (1 : EReal) else 0) * x = if w.toNat = s then x else 0 := by
  have hiff : BitVec.ofNat 32 s = w ↔ w.toNat = s := by
    constructor
    · intro h; rw [← h, BitVec.toNat_ofNat]; omega
    · intro h; apply BitVec.eq_of_toNat_eq; rw [BitVec.toNat_ofNat, h]; omega
  by_cases h : w.toNat = s
  · rw [if_pos h, if_pos (hiff.mpr h), one_mul]
  · rw [if_neg h, if_neg (fun h' => h (hiff.mp h')), zero_mul]

/-- Tile `n`'s contribution to segment s on channel ch: its rows are rows `n * 8192 + k` of all rows. -/
theorem tile_sum (c : Dev nD) (n : ℕ) (hn : n < cfg0.N) (s : Fin 256) (ch : Fin 64) :
    ∑ k : Fin 8192, (if BitVec.ofNat 32 s.val = labBlk m c ⟨n, hn⟩ (ix1 k) then (1 : EReal) else 0) * rowBlk m c ⟨n, hn⟩ (ix3 (0 : Fin 1) k ch)
      = ∑ k ∈ Finset.range 8192, rowTerm (xf m c) (lab m c) s.val ch (n * 8192 + k) := by
  rw [← Fin.sum_univ_eq_sum_range (fun k => rowTerm (xf m c) (lab m c) s.val ch (n * 8192 + k))]
  refine Finset.sum_congr rfl fun k _ => ?_
  rw [label_read m c ⟨n, hn⟩ k labels_cast, row_read m c ⟨n, hn⟩ k ch rows_cast, select_mul _ s.isLt]
  rfl

/-- Tile `n`'s contribution to segment s's count. -/
theorem tile_count (c : Dev nD) (n : ℕ) (hn : n < cfg0.N) (s : Fin 256) :
    ∑ k : Fin 8192, (if BitVec.ofNat 32 s.val = labBlk m c ⟨n, hn⟩ (ix1 k) then (1 : EReal) else 0)
      = ∑ k ∈ Finset.range 8192, rowUnit (lab m c) s.val (n * 8192 + k) := by
  rw [← Fin.sum_univ_eq_sum_range (fun k => rowUnit (lab m c) s.val (n * 8192 + k))]
  refine Finset.sum_congr rfl fun k _ => ?_
  rw [label_read m c ⟨n, hn⟩ k labels_cast]
  have h := select_mul s.val s.isLt ((lab m c) (ix1 (rowIx (n * 8192 + k.val)))) 1
  rw [mul_one] at h
  exact h

/-- What tile `n` adds to the sum accumulator at an entry, and to the count accumulator. -/
def sumAdd (c : Dev nD) (n : ℕ) (i : S256x64.Idx) : EReal :=
  ∑ k ∈ Finset.range 8192, rowTerm (xf m c) (lab m c) (i 0).val (i 1) (n * 8192 + k)
def cntAdd (c : Dev nD) (n : ℕ) (i : S256x1.Idx) : EReal :=
  ∑ k ∈ Finset.range 8192, rowUnit (lab m c) (i 0).val (n * 8192 + k)

/-- The blocks the first tile resets the accumulators to are zero. -/
theorem zero_sums (i : S256x64.Idx) : (k0_pay1 (F := Ideal)) i = 0 := by
  unfold k0_pay1
  rw [shapeCast_self, broadcast_apply]
  exact Ideal.ofBits_zero_f32
theorem zero_counts (i : S256x1.Idx) : (k0_pay2 (F := Ideal)) i = 0 := by
  unfold k0_pay2
  rw [shapeCast_self, broadcast_apply]
  exact Ideal.ofBits_zero_f32

/-- One tile's step of the sum accumulator, -/
theorem sums_step (c : Dev nD) (n : ℕ) (hn : n < cfg0.N) (acc : Vec Ideal S256x64 .f32) (i : S256x64.Idx) :
    k0_pay4 (F := Ideal) (labBlk m c ⟨n, hn⟩) (rowBlk m c ⟨n, hn⟩) acc i = acc i + sumAdd m c n i := by
  obtain ⟨s, ch, rfl⟩ : ∃ (s : Fin 256) (ch : Fin 64), i = ix2 s ch := ⟨i 0, i 1, eq_ix2 i⟩
  rw [sums_step_apply, tile_sum]
  rfl

/-- and of the count accumulator. -/
theorem counts_step (c : Dev nD) (n : ℕ) (hn : n < cfg0.N) (acc : Vec Ideal S256x1 .f32) (i : S256x1.Idx) :
    k0_pay5 (F := Ideal) (labBlk m c ⟨n, hn⟩) acc i = acc i + cntAdd m c n i := by
  obtain ⟨s, u, rfl⟩ : ∃ (s : Fin 256) (u : Fin 1), i = ix2 s u := ⟨i 0, i 1, eq_ix2 i⟩
  rw [counts_step_apply, tile_count]
  rfl

/-- THE SUM ACCUMULATOR after point `t`: zero plus the contributions of the image's tiles up to `t`. -/
theorem sums_after (c : Dev nD) (t : Fin cfg0.N) (i : S256x64.Idx) :
    (outsAt0 m c t.val t.isLt).2.1 i
      = 0 + ∑ j ∈ Finset.range (t.val % 32 + 1), sumAdd m c (32 * (t.val / 32) + j) i := by
  have hN : cfg0.N = 256 := N_0
  have ht := t.isLt
  rw [soutsAt0_0_eq m c t]
  refine Pipeline.accAt_add_apply (N := cfg0.N) (β := EReal) _ _ (fun _ => 0) (sumAdd m c) (32 * (t.val / 32)) 31 ?_ ?_
    (t.val % 32) (by omega) _ i
  · intro h i
    unfold scAt0_0
    rw [dif_pos (by omega), dif_neg (by omega), sums_first]
    show k0_pay4 (F := Ideal) (labBlk m c ⟨_, h⟩) (rowBlk m c ⟨_, h⟩) (k0_pay1 (F := Ideal)) i = _
    rw [sums_step, zero_sums]
  · intro n h acc i hb he
    unfold scAt0_0
    rw [dif_neg (by omega)]
    by_cases h1 : n % 32 = 31
    · rw [dif_pos h1, sums_last]
      exact sums_step m c n h acc i
    · rw [dif_neg h1, sums_middle]
      exact sums_step m c n h acc i

/-- THE COUNT ACCUMULATOR after point `t`: zero plus the label counts of the image's tiles up to `t`. -/
theorem counts_after (c : Dev nD) (t : Fin cfg0.N) (i : S256x1.Idx) :
    (outsAt0 m c t.val t.isLt).2.2 i
      = 0 + ∑ j ∈ Finset.range (t.val % 32 + 1), cntAdd m c (32 * (t.val / 32) + j) i := by
  have hN : cfg0.N = 256 := N_0
  have ht := t.isLt
  rw [soutsAt0_1_eq m c t]
  refine Pipeline.accAt_add_apply (N := cfg0.N) (β := EReal) _ _ (fun _ => 0) (cntAdd m c) (32 * (t.val / 32)) 31 ?_ ?_
    (t.val % 32) (by omega) _ i
  · intro h i
    unfold scAt0_1
    rw [dif_pos (by omega), dif_neg (by omega), counts_first]
    show k0_pay5 (F := Ideal) (labBlk m c ⟨_, h⟩) (k0_pay2 (F := Ideal)) i = _
    rw [counts_step, zero_counts]
  · intro n h acc i hb he
    unfold scAt0_1
    rw [dif_neg (by omega)]
    by_cases h1 : n % 32 = 31
    · rw [dif_pos h1, counts_last]
      exact counts_step m c n h acc i
    · rw [dif_neg h1, counts_middle]
      exact counts_step m c n h acc i

/-- After an image's last tile the sum accumulator holds the image's segment sums, -/
theorem sums_image (c : Dev nD) (t : Fin cfg0.N) (h1 : t.val % 32 = 31) (s : Fin 256) (ch : Fin 64) :
    (outsAt0 m c t.val t.isLt).2.1 (ix2 s ch) = segSum (xf m c) (lab m c) (t.val / 32) s.val ch := by
  rw [sums_after, h1, zero_add]
  exact segSum_tiles (xf m c) (lab m c) (t.val / 32) s.val ch

/-- and the count accumulator its segment counts. -/
theorem counts_image (c : Dev nD) (t : Fin cfg0.N) (h1 : t.val % 32 = 31) (s : Fin 256) (u : Fin 1) :
    (outsAt0 m c t.val t.isLt).2.2 (ix2 s u) = segCount (lab m c) (t.val / 32) s.val := by
  rw [counts_after, h1, zero_add]
  exact segCount_tiles (lab m c) (t.val / 32) s.val

/-- The output block of point `t` is block `t / 32` of the result: one image. -/
theorem point_out : ∀ t : Fin cfg0.N, win0_2.index t (0 : Fin 3) = t.val / 32 ∧ win0_2.index t (1 : Fin 3) = 0
    ∧ win0_2.index t (2 : Fin 3) = 0 :=
  (by decide +kernel : ∀ t : Fin grid0.N, win0_2.index t (0 : Fin 3) = t.val / 32 ∧ win0_2.index t (1 : Fin 3) = 0
    ∧ win0_2.index t (2 : Fin 3) = 0)

/-- The mean at an index named by its coordinates. -/
theorem mean_at (x : Rows.Idx → EReal) (l : Labels.Idx → BitVec 32) (i : Means.Idx) (b s : ℕ) (ch : Fin 64)
    (h0 : (i 0).val = b) (h1 : (i 1).val = s) (h2 : (i 2).val = ch.val) :
    mean x l i = Ideal.div (segSum x l b s ch) (max (segCount l b s) 1) := by
  unfold mean
  rw [h0, h1, show i 2 = ch from Fin.ext h2]

/-- An entry of the quotient the last tile of image `t / 32` forms is the segment mean at that image's entry. -/
theorem block_entry (c : Dev nD) (t : Fin cfg0.N) (h1 : t.val % 32 = 31) (y : S1x256x64.Idx) (i : Means.Idx)
    (hi0 : (i 0).val = t.val / 32) (hi1 : (i 1).val = (y 1).val) (hi2 : (i 2).val = (y 2).val) :
    k0_pay6 (F := Ideal) (outsAt0 m c t.val t.isLt).2.2 (outsAt0 m c t.val t.isLt).2.1 y = mean (xf m c) (lab m c) i := by
  obtain ⟨u, s, ch, rfl⟩ : ∃ (u : Fin 1) (s : Fin 256) (ch : Fin 64), y = ix3 u s ch := ⟨y 0, y 1, y 2, eq_ix3 y⟩
  rw [quotient_apply, sums_image m c t h1, counts_image m c t h1, mean_at _ _ i (t.val / 32) s.val ch hi0 hi1 hi2]

/-- WHAT AN IMAGE'S LAST TILE WRITES BACK is that image's block of the segment mean. -/
theorem flushed_eq (c : Dev nD) (t : Fin cfg0.N) (hf : (cfg0.win 2).flush t = true) :
    (dats m 0 c).flushed 2 t = ((cfg0.win 2).blk t).view.read (Elt Ideal) (mean (xf m c) (lab m c)) := by
  have h1 : t.val % 32 = 31 := (flush0_2 t).mp hf
  have h0 : ¬t.val % 32 = 0 := by omega
  have e0 : (outsAt0 m c t.val t.isLt).2.1 = k0_pay4 (F := Ideal) (labBlk m c t) (rowBlk m c t)
      (outsAt0 m c (t.val - 1) (Nat.lt_of_le_of_lt (Nat.sub_le _ _) t.isLt)).2.1 := by
    rw [outsAt0_C m c t h0 h1]; dsimp only; exact sums_last ..
  have e1 : (outsAt0 m c t.val t.isLt).2.2 = k0_pay5 (F := Ideal) (labBlk m c t)
      (outsAt0 m c (t.val - 1) (Nat.lt_of_le_of_lt (Nat.sub_le _ _) t.isLt)).2.2 := by
    rw [outsAt0_C m c t h0 h1]; dsimp only; exact counts_last ..
  rw [flushed2_C m c t h0 h1, block_last]
  show (cfg0.win 2).cut (grid0.coords t) (k0_pay6 (F := Ideal)
    (k0_pay5 (F := Ideal) (labBlk m c t) (outsAt0 m c (t.val - 1) (Nat.lt_of_le_of_lt (Nat.sub_le _ _) t.isLt)).2.2)
    (k0_pay4 (F := Ideal) (labBlk m c t) (rowBlk m c t) (outsAt0 m c (t.val - 1) (Nat.lt_of_le_of_lt (Nat.sub_le _ _) t.isLt)).2.1)) = _
  rw [← e0, ← e1]
  funext y
  rw [View.read_apply]
  refine Eq.trans ?_ (cast_eq _ _).symm
  have y0 : (y 0).val < 1 := (y 0).isLt
  refine block_entry m c t h1 ((cfg0.win 2).xinj (grid0.coords t) y) _ ?_ ?_ ?_
  · show win0_2.index t 0 * 1 + 1 * (y 0).val = t.val / 32
    rw [(point_out t).1]; omega
  · show win0_2.index t 1 * 256 + 1 * (y 1).val = (y 1).val
    rw [(point_out t).2.1]; omega
  · show win0_2.index t 2 * 64 + 1 * (y 2).val = (y 2).val
    rw [(point_out t).2.2]; omega

/-- Every entry of the result lies in the block some image's last tile writes back. -/
theorem covered (i : S8x256x64.Idx) : ∃ t : Fin cfg0.N, (cfg0.win 2).flush t = true ∧ i ∈ ((cfg0.win 2).blk t).view.set := by
  have hN : cfg0.N = 256 := N_0
  have i0 : (i 0).val < 8 := (i 0).isLt
  have i1 : (i 1).val < 256 := (i 1).isLt
  have i2 : (i 2).val < 64 := (i 2).isLt
  let t : Fin cfg0.N := ⟨32 * (i 0).val + 31, by omega⟩
  have ht : t.val = 32 * (i 0).val + 31 := rfl
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [(point_out t).1]; omega
  | ⟨1, _⟩ =>
    show win0_2.index t 1 * 256 ≤ (i 1).val ∧ (i 1).val < win0_2.index t 1 * 256 + 256
    rw [(point_out t).2.1]; omega
  | ⟨2, _⟩ =>
    show win0_2.index t 2 * 64 ≤ (i 2).val ∧ (i 2).val < win0_2.index t 2 * 64 + 64
    rw [(point_out t).2.2]; omega

/-- THE RESULT ARRAY after the run is the segment mean of the flattened inputs. -/
theorem final (c : Dev nD) : (dats m 0 c).arrAt 2 cfg0.N = mean (xf m c) (lab m c) :=
  (dats m 0 c).arrAt_eq_of_cover 2 (mean (xf m c) (lab m c)) (flushed_eq m c) (covered)

/-- The kernel's run, read: the result at the segment mean, the arguments unchanged. -/
theorem run : θ_run defs (onTc (τ := τ) (main (F := Ideal))) ⟨m, fun _ => 0, ρ⟩ fun r => ∀ c : Dev nD,
      r.2.mem ((c : Thread nD τ).loc main_v2) = mean (xf m c) (lab m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.SegValue

end
-- ==== Proof.PreDecode.lean ====
/-
  The label range, read out of the printed precondition.

  The precondition is a conjunction of three one-bit words. The first is the finiteness test of the float
  argument and plays no part here. The second is the conjunction, over every index, of the signed comparison
  `0 ≤ label`; the third the conjunction, over every index, of the signed comparison `label < 256`. When the
  whole word is 1, each conjunct is 1, and a conjunction over all indices that is 1 is 1 at each index. So every
  label, read as a signed 32-bit word, lies in [0, 256). A 32-bit word whose signed value is nonnegative has
  that value as its unsigned value, hence as an unsigned word every label is below 256.
-/
import proofs.«402605_j50663434223993_3_alg».proof.Pre_finite_inputs
import Idealize.ShloMosaic.Lib.ReduceAll
import Idealize.ShloMosaic.Lib.ValueIdx

namespace Cert.PreDecode

open Idealize.ShloMosaic

/-- The scalar shape has exactly one index. -/
instance : Subsingleton Cert.Pre_finite_inputs.S_.Idx := ⟨fun a b => funext fun d => d.elim0⟩

/-- A 32-bit word whose signed value lies in [0, 256) is below 256 as an unsigned word: the signed value
    is either the unsigned one (when that is below 2^31) or the unsigned one less 2^32, which is negative. -/
theorem toNat_lt_of_toInt {x : BitVec 32} (h0 : (0#32).toInt ≤ x.toInt) (h1 : x.toInt < (256#32).toInt) :
    x.toNat < 256 := by
  have e0 : (0#32).toInt = 0 := by decide
  have e1 : (256#32).toInt = 256 := by decide
  rw [e0] at h0
  rw [e1] at h1
  have hx := x.isLt
  rw [BitVec.toInt_eq_toNat_cond] at h0 h1
  split at h0 <;> omega

/-- Under the printed precondition every label is below 256 as an unsigned word. -/
theorem labels_lt_of_pre {F : FTy → Type} [FloatOps F] [Cert.Pre_finite_inputs.Facts]
    (x0 : FVec F Cert.Pre_finite_inputs.S8x512x512x64 .f32) (x1 : IVec Cert.Pre_finite_inputs.S8x512x512 32)
    (h : Cert.Pre_finite_inputs.fn (F := F) x0 x1 = fun _ => 1#1) :
    ∀ i : Cert.Pre_finite_inputs.S8x512x512.Idx, (x1 i).toNat < 256 := by
  intro i
  -- the precondition's word at the scalar shape's one index
  have h1 := congrFun h ValueIdx.ix0
  dsimp only [Cert.Pre_finite_inputs.fn] at h1
  -- split the outer conjunction, then the inner one: the two integer conjuncts
  obtain ⟨h12, hlt⟩ := IntOp.andi_eq_one.1 h1
  obtain ⟨-, hge⟩ := IntOp.andi_eq_one.1 h12
  -- a conjunction over all indices that is 1 is 1 at the index i
  have hge_i := Host.reduce_andi_all _ _ _ _ _ hge i
  have hlt_i := Host.reduce_andi_all _ _ _ _ _ hlt i
  -- the broadcast of a scalar constant reads that constant at every index, so these are comparisons
  -- of the label with the words 0 and 256
  have a0 : (0#32).toInt ≤ (x1 i).toInt := IntOp.cmpi_sge.1 hge_i
  have a1 : (x1 i).toInt < (256#32).toInt := IntOp.cmpi_slt.1 hlt_i
  exact toNat_lt_of_toInt a0 a1

end Cert.PreDecode
-- ==== Proof.LibScatterAdd.lean ====
/-
  A host `stablehlo.scatter` with an `add` body, and the row gather that is its transpose, read at ONE index of
  their result, at the ideal instance (floats extended reals, the accumulation an exact sum).

  jnp's `x.at[r, c].add(v)` over a rank-2 operand `[M, K]` prints with scatter indices `[E, 2]` (entry `e`'s row word
  and column word), scalar updates `[E]`, both operand axes inserted window axes: result entry `y` is the operand's
  plus the sum of the updates whose two words, read SIGNED and NOT clamped, are `y`'s coordinates
  (`pair_scatterAdd_apply`); an update whose words name no entry of the operand meets no `y` and is dropped.
  `jax.ops.segment_sum` of rows `[E, N]` into `[M, N]` prints with scatter indices `[E, 1]` and the column axis a
  window axis: result entry `(i, n)` is the operand's plus the sum over the entries `e` whose word is `i` of update
  `(e, n)` (`row_scatterAdd_apply`). `table[idx]` of a table `[N, D]` at `idx : [R]` prints as a gather with start
  indices `[R, 1]`, the row axis collapsed and the column axis an offset axis: result `(r, j)` is column `j` of the
  row the word names, read signed and CLAMPED into the table (`row_gather_apply`).
-/
import Idealize.ShloMosaic.PureOps.Ideal
import Idealize.ShloMosaic.Lib.ValueIdx

noncomputable section

open scoped BigOperators

namespace Cert.Lib.ScatterAdd

open Idealize.ShloMosaic Idealize.ShloMosaic.ValueIdx

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## `x.at[r, c].add(v)` -/

/-- The dimension numbers of `x.at[r, c].add(v)`: operand `[M, K]`, scatter indices `[E, 2]`, updates `[E]`. -/
abbrev pairDims (M K E : Nat) (wf : ScatterDims.WF ⟨2, ![M, K]⟩ ⟨2, ![E, 2]⟩ ⟨1, ![E]⟩ [] [0, 1] [0, 1] 1) :
    ScatterDims ⟨2, ![M, K]⟩ ⟨2, ![E, 2]⟩ ⟨1, ![E]⟩ where
  updateWindowDims := []
  insertedWindowDims := [0, 1]
  scatterDimsToOperandDims := [0, 1]
  indexVectorDim := 1
  wf := wf

section Pair
variable {M K E w : Nat} (wf : ScatterDims.WF ⟨2, ![M, K]⟩ ⟨2, ![E, 2]⟩ ⟨1, ![E]⟩ [] [0, 1] [0, 1] 1)

/-- Both operand axes are inserted: an update has no window, its window coordinate is `0` on each. -/
theorem pair_window (j : (⟨1, ![E]⟩ : Shape).Idx) (a : Fin 2) : (pairDims M K E wf).window j a = 0 := by
  unfold ScatterDims.window
  rw [dif_neg]
  intro h
  have : a ∉ [(0 : Fin 2), 1] := (List.mem_filter.1 h).2 |> fun h' => by simpa using h'
  match a with
  | ⟨0, _⟩ => exact this (by simp)
  | ⟨1, _⟩ => exact this (by simp)

/-- The start on the row axis is entry `e`'s first word, read signed. -/
theorem pair_start0 (e : Fin E) (idx : IVec ⟨2, ![E, 2]⟩ w) :
    (pairDims M K E wf).start (ix1 e) idx (0 : Fin 2) = (idx (ix2 e (0 : Fin 2))).toInt := by
  unfold ScatterDims.start
  rw [dif_pos (show (0 : Fin 2) ∈ (pairDims M K E wf).scatterDimsToOperandDims from by simp)]
  have hsi : (pairDims M K E wf).siIdx (ix1 e) ⟨List.idxOf (0 : Fin 2) (pairDims M K E wf).scatterDimsToOperandDims,
      List.idxOf_lt_length_iff.2 (by simp)⟩ = ix2 e (0 : Fin 2) := by
    funext b; refine Fin.ext ?_
    match b with
    | ⟨0, _⟩ => rfl
    | ⟨1, _⟩ => rfl
  rw [hsi]

/-- The start on the column axis is entry `e`'s second word, read signed. -/
theorem pair_start1 (e : Fin E) (idx : IVec ⟨2, ![E, 2]⟩ w) :
    (pairDims M K E wf).start (ix1 e) idx (1 : Fin 2) = (idx (ix2 e (1 : Fin 2))).toInt := by
  unfold ScatterDims.start
  rw [dif_pos (show (1 : Fin 2) ∈ (pairDims M K E wf).scatterDimsToOperandDims from by simp)]
  have hsi : (pairDims M K E wf).siIdx (ix1 e) ⟨List.idxOf (1 : Fin 2) (pairDims M K E wf).scatterDimsToOperandDims,
      List.idxOf_lt_length_iff.2 (by simp)⟩ = ix2 e (1 : Fin 2) := by
    funext b; refine Fin.ext ?_
    match b with
    | ⟨0, _⟩ => rfl
    | ⟨1, _⟩ => rfl
  rw [hsi]

/-- Update `e` lands on `y` exactly when its two words, read signed, are `y`'s coordinates. -/
theorem pair_resultIdx?_eq_some_iff (e : Fin E) (idx : IVec ⟨2, ![E, 2]⟩ w) (y : (⟨2, ![M, K]⟩ : Shape).Idx) :
    (pairDims M K E wf).resultIdx? (ix1 e) idx = some y
      ↔ (idx (ix2 e (0 : Fin 2))).toInt = ((y 0).val : ℤ) ∧ (idx (ix2 e (1 : Fin 2))).toInt = ((y 1).val : ℤ) := by
  unfold ScatterDims.resultIdx?
  have h0 := pair_start0 wf e idx
  have h1 := pair_start1 wf e idx
  have w0 := pair_window wf (ix1 e) (0 : Fin 2)
  have w1 := pair_window wf (ix1 e) (1 : Fin 2)
  constructor
  · intro h
    split at h
    · rename_i hin
      have hy := Option.some.inj h
      have e0 := congrArg (fun z : (⟨2, ![M, K]⟩ : Shape).Idx => (z 0).val) hy
      have e1 := congrArg (fun z : (⟨2, ![M, K]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (pairDims M K E wf).start (ix1 e) idx a + ((pairDims M K E wf).window (ix1 e) a : ℤ) = ((y a).val : ℤ) := by
      intro a
      match a with
      | ⟨0, _⟩ =>
        show (pairDims M K E wf).start (ix1 e) idx 0 + ((pairDims M K E wf).window (ix1 e) 0 : ℤ) = ((y 0).val : ℤ)
        rw [h0, w0, e0]; simp
      | ⟨1, _⟩ =>
        show (pairDims M K E wf).start (ix1 e) idx 1 + ((pairDims M K E wf).window (ix1 e) 1 : ℤ) = ((y 1).val : ℤ)
        rw [h1, w1, e1]; simp
    have hin : ∀ a : Fin 2, 0 ≤ (pairDims M K E wf).start (ix1 e) idx a + ((pairDims M K E wf).window (ix1 e) a : ℤ)
        ∧ (pairDims M K E wf).start (ix1 e) idx a + ((pairDims M K E wf).window (ix1 e) a : ℤ) < ((⟨2, ![M, K]⟩ : Shape).size a : ℤ) :=
      fun a => by rw [key a]; exact ⟨Int.natCast_nonneg _, by exact_mod_cast (y a).isLt⟩
    rw [dif_pos hin]
    refine congrArg some ?_
    funext a; refine Fin.ext ?_
    show ((pairDims M K E wf).start (ix1 e) idx a + ((pairDims M K E wf).window (ix1 e) a : ℤ)).toNat = (y a).val
    rw [key a]; simp

/-- THE PAIR SCATTER-ADD READ AT `y`. -/
theorem pair_scatterAdd_apply
    (x : (⟨2, ![M, K]⟩ : Shape).Idx → EReal) (idx : IVec ⟨2, ![E, 2]⟩ w) (upd : (⟨1, ![E]⟩ : Shape).Idx → EReal)
    (y : (⟨2, ![M, K]⟩ : Shape).Idx) :
    Ideal.hostScatterAdd (pairDims M K E wf) x idx upd y
      = x y + ∑ e : Fin E, if (idx (ix2 e (0 : Fin 2))).toInt = ((y 0).val : ℤ) ∧ (idx (ix2 e (1 : Fin 2))).toInt = ((y 1).val : ℤ)
          then upd (ix1 e) else 0 := by
  unfold Ideal.hostScatterAdd
  refine congrArg (x y + ·) ?_
  rw [Finset.sum_filter, sum_idx1]
  refine Finset.sum_congr rfl fun e _ => ?_
  exact if_congr (pair_resultIdx?_eq_some_iff wf e idx y) rfl rfl

end Pair

/-! ## A segment sum of rows -/

/-- The dimension numbers of a segment sum of rows: operand `[M, N]`, scatter indices `[E, 1]`, updates `[E, N]`. -/
abbrev rowDims (M N E : Nat) (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

section Row
variable {M N E w : Nat} (wf : ScatterDims.WF ⟨2, ![M, N]⟩ ⟨2, ![E, 1]⟩ ⟨2, ![E, N]⟩ [1] [0] [0] 1)

/-- The row axis is inserted: no window coordinate on it. -/
theorem row_window0 (j : (⟨2, ![E, N]⟩ : Shape).Idx) : (rowDims M N E wf).window j (0 : Fin 2) = 0 := by
  unfold ScatterDims.window
  rw [dif_neg]
  intro h
  have : (0 : Fin 2) ∉ [(0 : Fin 2)] := (List.mem_filter.1 h).2 |> fun h' => by simpa using h'
  exact this (by simp)

/-- The column axis is the update's window axis: the window coordinate is the update's column. -/
theorem row_window1 (e : Fin E) (n : Fin N) : (rowDims M N E wf).window (ix2 e n) (1 : Fin 2) = n.val := by
  unfold ScatterDims.window
  rw [dif_pos (show (1 : Fin 2) ∈ (rowDims M N E wf).sKept from List.mem_filter.2 ⟨List.mem_finRange _, by simp⟩)]
  rfl

/-- The start on the row axis is entry `e`'s word, read signed … -/
theorem row_start0 (e : Fin E) (n : Fin N) (idx : IVec ⟨2, ![E, 1]⟩ w) :
    (rowDims M N E wf).start (ix2 e n) idx (0 : Fin 2) = (idx (ix2 e (0 : Fin 1))).toInt := by
  unfold ScatterDims.start
  rw [dif_pos (show (0 : Fin 2) ∈ (rowDims M N E wf).scatterDimsToOperandDims from by simp)]
  have hsi : (rowDims M N E wf).siIdx (ix2 e n) ⟨List.idxOf (0 : Fin 2) (rowDims M N E wf).scatterDimsToOperandDims,
      List.idxOf_lt_length_iff.2 (by simp)⟩ = ix2 e (0 : Fin 1) := by
    funext b; refine Fin.ext ?_
    match b with
    | ⟨0, _⟩ => rfl
    | ⟨1, _⟩ => rfl
  rw [hsi]

/-- … and no start index names the column axis. -/
theorem row_start1 (j : (⟨2, ![E, N]⟩ : Shape).Idx) (idx : IVec ⟨2, ![E, 1]⟩ w) :
    (rowDims M N E wf).start j idx (1 : Fin 2) = 0 := by
  unfold ScatterDims.start
  rw [dif_neg (show (1 : Fin 2) ∉ (rowDims M N E wf).scatterDimsToOperandDims from by simp)]

/-- Update `(e, n)` lands on `y` exactly when `e`'s word, read signed, is `y`'s row and `n` is `y`'s column. -/
theorem row_resultIdx?_eq_some_iff (e : Fin E) (n : Fin N) (idx : IVec ⟨2, ![E, 1]⟩ w) (y : (⟨2, ![M, N]⟩ : Shape).Idx) :
    (rowDims M N E wf).resultIdx? (ix2 e n) idx = some y
      ↔ (idx (ix2 e (0 : Fin 1))).toInt = ((y 0).val : ℤ) ∧ n.val = (y 1).val := by
  unfold ScatterDims.resultIdx?
  have h0 := row_start0 wf e n idx
  have h1 := row_start1 wf (ix2 e n) idx
  have w0 := row_window0 wf (ix2 e n)
  have w1 := row_window1 wf e n
  constructor
  · intro h
    split at h
    · rename_i hin
      have hy := Option.some.inj h
      have e0 := congrArg (fun z : (⟨2, ![M, N]⟩ : Shape).Idx => (z 0).val) hy
      have e1 := congrArg (fun z : (⟨2, ![M, N]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (rowDims M N E wf).start (ix2 e n) idx a + ((rowDims M N E wf).window (ix2 e n) a : ℤ) = ((y a).val : ℤ) := by
      intro a
      match a with
      | ⟨0, _⟩ =>
        show (rowDims M N E wf).start (ix2 e n) idx 0 + ((rowDims M N E wf).window (ix2 e n) 0 : ℤ) = ((y 0).val : ℤ)
        rw [h0, w0, e0]; simp
      | ⟨1, _⟩ =>
        show (rowDims M N E wf).start (ix2 e n) idx 1 + ((rowDims M N E wf).window (ix2 e n) 1 : ℤ) = ((y 1).val : ℤ)
        rw [h1, w1, e1]; simp
    have hin : ∀ a : Fin 2, 0 ≤ (rowDims M N E wf).start (ix2 e n) idx a + ((rowDims M N E wf).window (ix2 e n) a : ℤ)
        ∧ (rowDims M N E wf).start (ix2 e n) idx a + ((rowDims M N E wf).window (ix2 e n) a : ℤ) < ((⟨2, ![M, N]⟩ : Shape).size a : ℤ) :=
      fun a => by rw [key a]; exact ⟨Int.natCast_nonneg _, by exact_mod_cast (y a).isLt⟩
    rw [dif_pos hin]
    refine congrArg some ?_
    funext a; refine Fin.ext ?_
    show ((rowDims M N E wf).start (ix2 e n) idx a + ((rowDims M N E wf).window (ix2 e n) a : ℤ)).toNat = (y a).val
    rw [key a]; simp

/-- The row scatter-add read at the entry `(p, q)`. -/
theorem row_scatterAdd_apply_ix
    (x : (⟨2, ![M, N]⟩ : Shape).Idx → EReal) (idx : IVec ⟨2, ![E, 1]⟩ w) (upd : (⟨2, ![E, N]⟩ : Shape).Idx → EReal)
    (p : Fin M) (q : Fin N) :
    Ideal.hostScatterAdd (rowDims M N E wf) x idx upd (ix2 p q)
      = x (ix2 p q) + ∑ e : Fin E, if (idx (ix2 e (0 : Fin 1))).toInt = ((p.val : ℕ) : ℤ) then upd (ix2 e q) else 0 := by
  unfold Ideal.hostScatterAdd
  refine congrArg (x (ix2 p q) + ·) ?_
  rw [Finset.sum_filter, sum_idx2]
  refine Finset.sum_congr rfl fun e _ => ?_
  have hstep : ∀ n : Fin N, (if (rowDims M N E wf).resultIdx? (ix2 e n) idx = some (ix2 p q) then upd (ix2 e n) else 0)
      = if n = q then (if (idx (ix2 e (0 : Fin 1))).toInt = ((p.val : ℕ) : ℤ) then upd (ix2 e n) else 0) else 0 := by
    intro n
    by_cases hn : n = q
    · rw [if_pos hn]
      exact if_congr ((row_resultIdx?_eq_some_iff wf e n idx (ix2 p q)).trans
        ⟨fun h => h.1, fun h => ⟨h, congrArg Fin.val hn⟩⟩) rfl rfl
    · rw [if_neg hn, if_neg]
      intro h
      exact hn (Fin.ext ((row_resultIdx?_eq_some_iff wf e n idx (ix2 p q)).1 h).2)
  simp_rw [hstep]
  rw [Finset.sum_ite_eq' Finset.univ q]
  simp

/-- THE ROW SCATTER-ADD READ AT `y`. -/
theorem row_scatterAdd_apply
    (x : (⟨2, ![M, N]⟩ : Shape).Idx → EReal) (idx : IVec ⟨2, ![E, 1]⟩ w) (upd : (⟨2, ![E, N]⟩ : Shape).Idx → EReal)
    (y : (⟨2, ![M, N]⟩ : Shape).Idx) :
    Ideal.hostScatterAdd (rowDims M N E wf) x idx upd y
      = x y + ∑ e : Fin E, if (idx (ix2 e (0 : Fin 1))).toInt = ((y 0).val : ℤ) then upd (ix2 e (y 1)) else 0 := by
  obtain ⟨p, q, rfl⟩ : ∃ (p : Fin M) (q : Fin N), y = ix2 p q := ⟨y 0, y 1, eq_ix2 y⟩
  exact row_scatterAdd_apply_ix wf x idx upd p q

end Row

/-! ## `table[idx]` of a rank-2 table -/

/-- The dimension numbers of `table[idx]` for a table `[N, D]` and `idx : [R]`: start indices `[R, 1]`, result `[R, D]`. -/
abbrev rowGatherDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section RowGather
variable {α : Type} {N D R w : Nat}
  (wf : GatherDims.WF ⟨2, ![N, D]⟩ ⟨2, ![R, 1]⟩ ⟨2, ![R, D]⟩ [1] [0] [] [0] [] 1 ![1, D])

/-- On the table's row axis the operand coordinate is the start word, read signed and clamped (the axis is collapsed:
    nothing is added). -/
theorem gather_row_axis (idx : IVec ⟨2, ![R, 1]⟩ w) (r : Fin R) (j : Fin D) :
    (rowGatherDims N D R wf).start (ix2 r j) idx (0 : Fin 2) + (rowGatherDims N D R wf).batchCoord (ix2 r j) (0 : Fin 2)
      + (rowGatherDims N D R wf).offCoord (ix2 r j) (0 : Fin 2) = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N D R wf).startIndexMap from List.mem_singleton.mpr rfl)]
  have hsi : (rowGatherDims N D R wf).siIdx (ix2 r j) ⟨List.idxOf (0 : Fin 2) (rowGatherDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand coordinate is the result's own column (no start index names the axis). -/
theorem gather_col_axis (idx : IVec ⟨2, ![R, 1]⟩ w) (r : Fin R) (j : Fin D) :
    (rowGatherDims N D R wf).start (ix2 r j) idx (1 : Fin 2) + (rowGatherDims N D R wf).batchCoord (ix2 r j) (1 : Fin 2)
      + (rowGatherDims N D R wf).offCoord (ix2 r j) (1 : Fin 2) = j.val := by
  rw [GatherDims.batchCoord_eq_zero _ _ _ List.not_mem_nil]
  have hs : (rowGatherDims N D R wf).start (ix2 r j) idx (1 : Fin 2) = 0 := by
    unfold GatherDims.start
    rw [dif_neg (show (1 : Fin 2) ∉ (rowGatherDims N D R wf).startIndexMap from by simp)]
  have ho : (rowGatherDims N D R wf).offCoord (ix2 r j) (1 : Fin 2) = j.val := by
    unfold GatherDims.offCoord
    rw [dif_pos (show (1 : Fin 2) ∈ (rowGatherDims N D R wf).sKept from (GatherDims.mem_sKept _ _).mpr ⟨by simp, List.not_mem_nil⟩)]
    rfl
  rw [hs, ho]
  simp

end RowGather

/-- THE ROW GATHER READ AT `(r, j)`: column `j` of the row the start word names, read signed and clamped. -/
theorem row_gather_apply {α : Type} {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowGatherDims N D R wf) x idx (ix2 r j)
      = x (ix2 (⟨min (idx (ix2 r (0 : Fin 1))).toInt.toNat (N - 1), by omega⟩ : Fin N) j) := by
  unfold Host.gather
  refine congrArg x ?_
  funext a
  refine Fin.ext ?_
  match a with
  | ⟨0, _⟩ => exact gather_row_axis wf idx r j
  | ⟨1, _⟩ => exact gather_col_axis wf idx r j

end Cert.Lib.ScatterAdd

end
-- ==== Proof.LibScatterAddVec.lean ====
/-
  A host `stablehlo.scatter` with an `add` body into a VECTOR, read at one index of its result, at the ideal instance.

  `jax.ops.segment_sum` of a vector of `E` values into `M` segments prints with operand `[M]`, scatter indices `[E, 1]`
  (entry `e`'s segment word) and scalar updates `[E]`, the one operand axis an inserted window axis. Result entry `y` is
  the operand's plus the sum of the updates whose word, read SIGNED and NOT clamped, is `y`; an update whose word names
  no entry of the operand is dropped (`vec_scatterAdd_apply`).
-/
import Idealize.ShloMosaic.PureOps.Ideal
import Idealize.ShloMosaic.Lib.ValueIdx
import proofs.«402605_j50663434223993_3_alg».proof.Proof.LibScatterAdd

noncomputable section

open scoped BigOperators

namespace Cert.Lib.ScatterAddVec

open Idealize.ShloMosaic Idealize.ShloMosaic.ValueIdx

/-- The dimension numbers of a segment sum of a vector: operand `[M]`, scatter indices `[E, 1]`, updates `[E]`. -/
abbrev vecDims (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

section Vec
variable {M E w : Nat} (wf : ScatterDims.WF ⟨1, ![M]⟩ ⟨2, ![E, 1]⟩ ⟨1, ![E]⟩ [] [0] [0] 1)

/-- The operand's one axis is inserted: an update has no window coordinate on it. -/
theorem vec_window (j : (⟨1, ![E]⟩ : Shape).Idx) : (vecDims M E wf).window j (0 : Fin 1) = 0 := by
  unfold ScatterDims.window
  rw [dif_neg]
  intro h
  have : (0 : Fin 1) ∉ [(0 : Fin 1)] := (List.mem_filter.1 h).2 |> fun h' => by simpa using h'
  exact this (by simp)

/-- The start on that axis is entry `e`'s word, read signed. -/
theorem vec_start (e : Fin E) (idx : IVec ⟨2, ![E, 1]⟩ w) :
    (vecDims M E wf).start (ix1 e) idx (0 : Fin 1) = (idx (ix2 e (0 : Fin 1))).toInt := by
  unfold ScatterDims.start
  rw [dif_pos (show (0 : Fin 1) ∈ (vecDims M E wf).scatterDimsToOperandDims from by simp)]
  have hsi : (vecDims M E wf).siIdx (ix1 e) ⟨List.idxOf (0 : Fin 1) (vecDims M E wf).scatterDimsToOperandDims,
      List.idxOf_lt_length_iff.2 (by simp)⟩ = ix2 e (0 : Fin 1) := by
    funext b; refine Fin.ext ?_
    match b with
    | ⟨0, _⟩ => rfl
    | ⟨1, _⟩ => rfl
  rw [hsi]

/-- Update `e` lands on `y` exactly when its word, read signed, is `y`'s coordinate. -/
theorem vec_resultIdx?_eq_some_iff (e : Fin E) (idx : IVec ⟨2, ![E, 1]⟩ w) (y : (⟨1, ![M]⟩ : Shape).Idx) :
    (vecDims M E wf).resultIdx? (ix1 e) idx = some y ↔ (idx (ix2 e (0 : Fin 1))).toInt = ((y 0).val : ℤ) := by
  unfold ScatterDims.resultIdx?
  have h0 := vec_start wf e idx
  have w0 := vec_window wf (ix1 e)
  constructor
  · intro h
    split at h
    · rename_i hin
      have hy := Option.some.inj h
      have e0 := congrArg (fun z : (⟨1, ![M]⟩ : Shape).Idx => (z 0).val) hy
      simp only at e0
      have b0 := hin 0
      rw [h0, w0] at b0 e0
      omega
    · exact absurd h (by simp)
  · intro e0
    have key : ∀ a : Fin 1, (vecDims M E wf).start (ix1 e) idx a + ((vecDims M E wf).window (ix1 e) a : ℤ) = ((y a).val : ℤ) := by
      intro a
      match a with
      | ⟨0, _⟩ =>
        show (vecDims M E wf).start (ix1 e) idx 0 + ((vecDims M E wf).window (ix1 e) 0 : ℤ) = ((y 0).val : ℤ)
        rw [h0, w0, e0]; simp
    have hin : ∀ a : Fin 1, 0 ≤ (vecDims M E wf).start (ix1 e) idx a + ((vecDims M E wf).window (ix1 e) a : ℤ)
        ∧ (vecDims M E wf).start (ix1 e) idx a + ((vecDims M E wf).window (ix1 e) a : ℤ) < ((⟨1, ![M]⟩ : Shape).size a : ℤ) :=
      fun a => by rw [key a]; exact ⟨Int.natCast_nonneg _, by exact_mod_cast (y a).isLt⟩
    rw [dif_pos hin]
    refine congrArg some ?_
    funext a; refine Fin.ext ?_
    show ((vecDims M E wf).start (ix1 e) idx a + ((vecDims M E wf).window (ix1 e) a : ℤ)).toNat = (y a).val
    rw [key a]; simp

/-- THE VECTOR SCATTER-ADD READ AT `y`. -/
theorem vec_scatterAdd_apply
    (x : (⟨1, ![M]⟩ : Shape).Idx → EReal) (idx : IVec ⟨2, ![E, 1]⟩ w) (upd : (⟨1, ![E]⟩ : Shape).Idx → EReal)
    (y : (⟨1, ![M]⟩ : Shape).Idx) :
    Ideal.hostScatterAdd (vecDims M E wf) x idx upd y
      = x y + ∑ e : Fin E, if (idx (ix2 e (0 : Fin 1))).toInt = ((y 0).val : ℤ) then upd (ix1 e) else 0 := by
  unfold Ideal.hostScatterAdd
  refine congrArg (x y + ·) ?_
  rw [Finset.sum_filter, Cert.Lib.ScatterAdd.sum_idx1]
  refine Finset.sum_congr rfl fun e _ => ?_
  exact if_congr (vec_resultIdx?_eq_some_iff wf e idx y) rfl rfl

end Vec

end Cert.Lib.ScatterAddVec

end
-- ==== Proof.RefValue.lean ====
/-
  The reference program computes the segment mean.

  The reference scatters every row of every image to the key `image * 256 + label`: once the rows' 64 channels into a
  [2048, 64] table of sums, once a 1 per row into a table of 2048 counts, both starting from zero; it then divides each
  sum by the larger of its count and 1 and reads the [2048, 64] quotient as [8, 256, 64]. With every label below 256 the
  key of row `e` (image `e / 262144`) is `e / 262144 * 256 + label e`, a number below 2048 that the 32-bit arithmetic
  computes without wrapping, and the key `b * 256 + s` collects exactly image `b`'s rows labelled `s`. So entry
  `(b, s, ch)` of the result is the sum of those rows' channel `ch` over the larger of their number and 1: the segment
  mean.
-/
import proofs.«402605_j50663434223993_3_alg».proof.Proof.Gen.ReferenceIdeal.Read
import proofs.«402605_j50663434223993_3_alg».proof.Proof.Spec
import proofs.«402605_j50663434223993_3_alg».proof.Proof.LibScatterAdd
import proofs.«402605_j50663434223993_3_alg».proof.Proof.LibScatterAddVec
import proofs.«402605_j50663434223993_3_alg».proof.Proof.Consts
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
  Cert.SegMean

/-! ## The key of a row -/

/-- The key the reference computes for row `e`, as a 32-bit word: the image number `e / 262144` times 256, plus the
    row's label word (the label map read at the position of row `e`). -/
theorem key_word (x1 : (⟨S8x512x512, .i32⟩ : BufTy).Contents (Elt Ideal)) (e : Fin 2097152) :
    val_main_v9 (F := Ideal) x1 (ix2 e (0 : Fin 1))
      = IntOp.addi (IntOp.muli (BitVec.ofNat 32 (e.val / 262144)) 256#32) (x1 (idx_main_v7 (ix1 e))) := by
  rw [val_main_v9_apply, val_main_v7_apply, val_main_v6_apply, val_main_v5_apply, val_main_v4_apply, val_main_v2_apply,
    val_main_v3_apply, val_main_c_apply, val_main_v1_apply]

/-- With the image number below 8 and the label below 256 the key word, read signed, is the natural number
    `image * 256 + label`: nothing wraps. -/
theorem key_toInt (q : ℕ) (hq : q < 8) (w : BitVec 32) (hw : w.toNat < 256) :
    (IntOp.addi (IntOp.muli (BitVec.ofNat 32 q) 256#32) w).toInt = ((q * 256 + w.toNat : ℕ) : ℤ) := by
  have h1 : (IntOp.addi (IntOp.muli (BitVec.ofNat 32 q) 256#32) w).toNat = q * 256 + w.toNat := by
    show (BitVec.ofNat 32 q * 256#32 + w).toNat = q * 256 + w.toNat
    rw [BitVec.toNat_add, BitVec.toNat_mul, BitVec.toNat_ofNat, BitVec.toNat_ofNat]
    omega
  rw [BitVec.toInt_eq_toNat_of_lt (by rw [h1]; omega), h1]

/-- The label of row `e` in the flattened label map is the label map read at the position of row `e`. -/
theorem labelAt_eq (x1 : (⟨S8x512x512, .i32⟩ : BufTy).Contents (Elt Ideal)) (hlb : S8x512x512.ShapeCasts Labels)
    (e : Fin 2097152) :
    labelAt (shapeCast Labels x1 hlb) e.val = (x1 (idx_main_v7 (ix1 e))).toNat := by
  unfold labelAt
  rw [rowIx_eq e.isLt]
  refine congrArg BitVec.toNat ?_
  exact shapeCast_apply x1 hlb (ix1 e) (idx_main_v7 (ix1 e))
    (by
      rewrite [Shape.rowMajor_val_three, Shape.rowMajor_val_one]
      have h0 : e.val < 2097152 := e.isLt
      show ((e.val / 262144) * 512 + e.val / 512 % 512) * 512 + e.val % 512 = e.val
      omega)

/-- Every label of the flattened label map is below 256 when every label of the label map is. -/
theorem labelAt_lt (x1 : (⟨S8x512x512, .i32⟩ : BufTy).Contents (Elt Ideal)) (hlb : S8x512x512.ShapeCasts Labels)
    (hl : ∀ i : S8x512x512.Idx, (x1 i).toNat < 256) (e : ℕ) (he : e < 2097152) :
    labelAt (shapeCast Labels x1 hlb) e < 256 := by
  have h := labelAt_eq x1 hlb ⟨e, he⟩
  rw [show (⟨e, he⟩ : Fin 2097152).val = e from rfl] at h
  rw [h]
  exact hl _

/-- Row `e`'s key is `b * 256 + s` exactly when its image number times 256 plus its label is. -/
theorem key_test (x1 : (⟨S8x512x512, .i32⟩ : BufTy).Contents (Elt Ideal)) (hlb : S8x512x512.ShapeCasts Labels)
    (hl : ∀ i : S8x512x512.Idx, (x1 i).toNat < 256) (e : Fin 2097152) (k : ℕ) :
    (val_main_v9 (F := Ideal) x1 (ix2 e (0 : Fin 1))).toInt = (k : ℤ)
      ↔ e.val / 262144 * 256 + labelAt (shapeCast Labels x1 hlb) e.val = k := by
  have he : e.val < 2097152 := e.isLt
  rw [key_word, key_toInt _ (by omega) _ (hl _), labelAt_eq]
  exact Nat.cast_inj

/-! ## The two scatters at a key -/

/-- The row scatter's dimension numbers are those of a segment sum of rows. -/
theorem rowRec_eq : scatter_S2048x64_S2097152x1_S2097152x64_1_0_0_1
    = Cert.Lib.ScatterAdd.rowDims 2048 64 2097152 Facts₀.scatter_S2048x64_S2097152x1_S2097152x64_1_0_0_1_wf := rfl

/-- The count scatter's dimension numbers are those of a segment sum of a vector. -/
theorem vecRec_eq : scatter_S2048_S2097152x1_S2097152_n_0_0_1
    = Cert.Lib.ScatterAddVec.vecDims 2048 2097152 Facts₀.scatter_S2048_S2097152x1_S2097152_n_0_0_1_wf := rfl

/-- A host scatter-add of rows whose dimension numbers are a segment sum's, read at entry `(p, q)`: the operand's entry
    plus the sum of column `q` of the updates whose word, read signed, is `p`. -/
theorem host_rowScatter_apply {M N E w : ℕ}
    (wf : ScatterDims.WF ⟨2, ![M, N]⟩ ⟨2, ![E, 1]⟩ ⟨2, ![E, N]⟩ [1] [0] [0] 1)
    (d : ScatterDims ⟨2, ![M, N]⟩ ⟨2, ![E, 1]⟩ ⟨2, ![E, N]⟩) (hd : d = Cert.Lib.ScatterAdd.rowDims M N E wf)
    (x : FVec Ideal ⟨2, ![M, N]⟩ .f32) (idx : IVec ⟨2, ![E, 1]⟩ w) (upd : FVec Ideal ⟨2, ![E, N]⟩ .f32)
    (p : Fin M) (q : Fin N) :
    Host.scatterAdd d x idx upd (ix2 p q)
      = x (ix2 p q) + ∑ e : Fin E, if (idx (ix2 e (0 : Fin 1))).toInt = ((p.val : ℕ) : ℤ) then upd (ix2 e q) else 0 := by
  subst hd
  exact Cert.Lib.ScatterAdd.row_scatterAdd_apply_ix wf x idx upd p q

/-- A host scatter-add into a vector whose dimension numbers are a segment sum's, read at entry `p`. -/
theorem host_vecScatter_apply {M E w : ℕ}
    (wf : ScatterDims.WF ⟨1, ![M]⟩ ⟨2, ![E, 1]⟩ ⟨1, ![E]⟩ [] [0] [0] 1)
    (d : ScatterDims ⟨1, ![M]⟩ ⟨2, ![E, 1]⟩ ⟨1, ![E]⟩) (hd : d = Cert.Lib.ScatterAddVec.vecDims M E wf)
    (x : FVec Ideal ⟨1, ![M]⟩ .f32) (idx : IVec ⟨2, ![E, 1]⟩ w) (upd : FVec Ideal ⟨1, ![E]⟩ .f32) (p : Fin M) :
    Host.scatterAdd d x idx upd (ix1 p)
      = x (ix1 p) + ∑ e : Fin E, if (idx (ix2 e (0 : Fin 1))).toInt = ((p.val : ℕ) : ℤ) then upd (ix1 e) else 0 := by
  subst hd
  exact Cert.Lib.ScatterAddVec.vec_scatterAdd_apply wf x idx upd (ix1 p)

/-- A row number in range is its own coordinate. -/
theorem rowIx_self (e : Fin 2097152) : rowIx e.val = e := Fin.ext (rowIx_val e.isLt)

/-- The rows the reference scatters are the flattened feature map. -/
theorem rows_eq (x0 : (⟨S8x512x512x64, .f32⟩ : BufTy).Contents (Elt Ideal)) (hr : S8x512x512x64.ShapeCasts Rows) :
    val_main_v0 (F := Ideal) x0 = shapeCast Rows x0 hr := rfl

/-- The table of sums at key `b * 256 + s`, channel `ch`: the sum of image `b`'s rows labelled `s`. -/
theorem sums_apply (x0 : (⟨S8x512x512x64, .f32⟩ : BufTy).Contents (Elt Ideal))
    (x1 : (⟨S8x512x512, .i32⟩ : BufTy).Contents (Elt Ideal))
    (hl : ∀ i : S8x512x512.Idx, (x1 i).toNat < 256)
    (hr : S8x512x512x64.ShapeCasts Rows) (hlb : S8x512x512.ShapeCasts Labels)
    (b : Fin 8) (s : Fin 256) (ch : Fin 64) (p : Fin 2048) (hp : p.val = b.val * 256 + s.val) :
    val_main_v10 (F := Ideal) x0 x1 (ix2 p ch)
      = segSum (shapeCast Rows x0 hr) (shapeCast Labels x1 hlb) b.val s.val ch := by
  have h := host_rowScatter_apply Facts₀.scatter_S2048x64_S2097152x1_S2097152x64_1_0_0_1_wf
    scatter_S2048x64_S2097152x1_S2097152x64_1_0_0_1 rowRec_eq (val_main_v8 (F := Ideal)) (val_main_v9 (F := Ideal) x1)
    (val_main_v0 (F := Ideal) x0) p ch
  unfold val_main_v10
  rw [h, val_main_v8_apply, val_main_cst_apply, Ideal.ofBits_def, Ideal.ofBits_zero_f32, zero_add,
    ← segSum_select (shapeCast Rows x0 hr) (shapeCast Labels x1 hlb) (labelAt_lt x1 hlb hl) b.val s.val b.isLt s.isLt ch,
    Finset.sum_range]
  refine Finset.sum_congr rfl fun e _ => ?_
  rw [hp, rowIx_self, rows_eq x0 hr]
  exact if_congr (key_test x1 hlb hl e _) rfl rfl

/-- The table of counts at key `b * 256 + s`: the number of image `b`'s rows labelled `s`. -/
theorem counts_apply (x1 : (⟨S8x512x512, .i32⟩ : BufTy).Contents (Elt Ideal))
    (hl : ∀ i : S8x512x512.Idx, (x1 i).toNat < 256) (hlb : S8x512x512.ShapeCasts Labels)
    (b : Fin 8) (s : Fin 256) (p : Fin 2048) (hp : p.val = b.val * 256 + s.val) :
    val_main_v14 (F := Ideal) x1 (ix1 p) = segCount (shapeCast Labels x1 hlb) b.val s.val := by
  have h := host_vecScatter_apply Facts₀.scatter_S2048_S2097152x1_S2097152_n_0_0_1_wf
    scatter_S2048_S2097152x1_S2097152_n_0_0_1 vecRec_eq (val_main_v12 (F := Ideal)) (val_main_v13 (F := Ideal) x1)
    (val_main_v11 (F := Ideal)) p
  unfold val_main_v14
  rw [h, val_main_v12_apply, val_main_cst_1_apply, Ideal.ofBits_def, Ideal.ofBits_zero_f32, zero_add,
    ← segCount_select (shapeCast Labels x1 hlb) (labelAt_lt x1 hlb hl) b.val s.val b.isLt s.isLt,
    Finset.sum_range]
  refine Finset.sum_congr rfl fun e _ => ?_
  rw [hp, val_main_v11_apply, val_main_cst_0_apply, Ideal.ofBits_def, Cert.Consts.ofBits_f32_one]
  exact if_congr (key_test x1 hlb hl e _) rfl rfl

/-! ## The quotient -/

/-- The [8, 256, 64] result reads entry `(b, s, ch)` at row `b * 256 + s`, column `ch` of the [2048, 64] quotient. -/
theorem idx_result (b : Fin 8) (s : Fin 256) (ch : Fin 64) (p : Fin 2048) (hp : p.val = b.val * 256 + s.val) :
    idx_main_v20 (ix3 b s ch) = ix2 p ch := by
  have hc : ch.val < 64 := ch.isLt
  funext a
  match a with
  | ⟨0, _⟩ =>
    refine Fin.ext ?_
    show ((b.val * 256 + s.val) * 64 + ch.val) / 64 = p.val
    omega
  | ⟨1, _⟩ =>
    refine Fin.ext ?_
    show ((b.val * 256 + s.val) * 64 + ch.val) % 64 = ch.val
    omega

/-- The denominator at entry `(p, ch)` of the [2048, 64] table is the floored count at key `p`. -/
theorem idx_denominator (p : Fin 2048) (ch : Fin 64) : idx_main_v17 (idx_main_v18 (ix2 p ch)) = ix1 p := by
  funext a
  match a with
  | ⟨0, _⟩ => rfl

/-- THE REFERENCE COMPUTES THE SEGMENT MEAN, when every label is below 256. -/
theorem reference_eq_mean (x0 : (⟨Cert.ReferenceIdeal.S8x512x512x64, .f32⟩ : BufTy).Contents (Elt Ideal))
    (x1 : (⟨Cert.ReferenceIdeal.S8x512x512, .i32⟩ : BufTy).Contents (Elt Ideal))
    (hl : ∀ i : Cert.ReferenceIdeal.S8x512x512.Idx, (x1 i).toNat < 256)
    (hr : Cert.ReferenceIdeal.S8x512x512x64.ShapeCasts Cert.SegMean.Rows)
    (hlb : Cert.ReferenceIdeal.S8x512x512.ShapeCasts Cert.SegMean.Labels) :
    Cert.ReferenceIdeal.Read.val_main_v20 (F := Ideal) x0 x1
      = Cert.SegMean.mean (shapeCast Cert.SegMean.Rows x0 hr) (shapeCast Cert.SegMean.Labels x1 hlb) := by
  funext i
  obtain ⟨b, s, ch, rfl⟩ : ∃ (b : Fin 8) (s : Fin 256) (ch : Fin 64), i = ix3 b s ch := ⟨i 0, i 1, i 2, eq_ix3 i⟩
  have hlt : b.val * 256 + s.val < 2048 := by
    have hb : b.val < 8 := b.isLt
    have hs : s.val < 256 := s.isLt
    omega
  have hm : mean (shapeCast Rows x0 hr) (shapeCast Labels x1 hlb) (ix3 b s ch)
      = Ideal.div (segSum (shapeCast Rows x0 hr) (shapeCast Labels x1 hlb) b.val s.val ch)
          (max (segCount (shapeCast Labels x1 hlb) b.val s.val) 1) := rfl
  rw [hm, val_main_v20_apply, idx_result b s ch ⟨b.val * 256 + s.val, hlt⟩ rfl, val_main_v19_apply, val_main_v18_apply,
    val_main_v17_apply, val_main_v16_apply, idx_denominator, val_main_v15_apply, val_main_cst_2_apply,
    sums_apply x0 x1 hl hr hlb b s ch ⟨b.val * 256 + s.val, hlt⟩ rfl,
    counts_apply x1 hl hlb b s ⟨b.val * 256 + s.val, hlt⟩ rfl,
    Ideal.hostDivf_def, Ideal.maximumf_def, Ideal.ofBits_def, Cert.Consts.ofBits_f32_one]

end Cert.ReferenceIdeal.RefValue

end
-- ==== Proof.lean ====
/-
  Segment-mean pooling: the kernel against its jnp reference, over the extended reals.

  Both programs receive a feature map [8, 512, 512, 64] and a label map [8, 512, 512] whose labels lie in [0, 256)
  (the precondition says so, beside the finiteness of the features). Read as 2097152 rows of 64 channels with one
  label per row, image b owning rows b * 262144 …, both compute for image b, label s, channel ch

      (sum of image b's rows labelled s, on channel ch) / max(number of those rows, 1).

  The kernel reaches it tile by tile: a one-hot label matrix times the tile's rows on the matrix unit, accumulated
  over the image's 32 tiles, the quotient written once per image. The reference scatters every row to the key
  image * 256 + label; with labels below 256 that key separates images, so key b * 256 + s collects exactly image b's
  rows labelled s. Sums over the extended reals may be regrouped freely, a one-hot factor is an exact 1 or an exact
  0, and both programs form the same quotient, so no bound on the features is needed: of the precondition only the
  label range is used, and only for the reference.

  The three runs terminate without fault with the arguments unchanged: the kernel's two by their generated
  frames, the reference's by its generated run. The idealization rewrote nothing.
-/
import proofs.«402605_j50663434223993_3_alg».proof.Defs
import proofs.«402605_j50663434223993_3_alg».proof.Proof.Gen.Kernel
import proofs.«402605_j50663434223993_3_alg».proof.Proof.Gen.Kernel.Skeleton
import proofs.«402605_j50663434223993_3_alg».proof.Proof.Gen.Kernel.Launch
import proofs.«402605_j50663434223993_3_alg».proof.Proof.Gen.Kernel.Points
import proofs.«402605_j50663434223993_3_alg».proof.Proof.Gen.Kernel.Frame
import proofs.«402605_j50663434223993_3_alg».proof.Proof.Gen.KernelIdeal
import proofs.«402605_j50663434223993_3_alg».proof.Proof.Gen.KernelIdeal.Skeleton
import proofs.«402605_j50663434223993_3_alg».proof.Proof.Gen.KernelIdeal.Launch
import proofs.«402605_j50663434223993_3_alg».proof.Proof.Gen.KernelIdeal.Points
import proofs.«402605_j50663434223993_3_alg».proof.Proof.Gen.KernelIdeal.Frame
import proofs.«402605_j50663434223993_3_alg».proof.Proof.Gen.ReferenceIdeal
import proofs.«402605_j50663434223993_3_alg».proof.Proof.Gen.Pre_finite_inputs
import proofs.«402605_j50663434223993_3_alg».proof.Proof.Gen.KernelIdeal.Value
import proofs.«402605_j50663434223993_3_alg».proof.Proof.Gen.ReferenceIdeal.Run
import proofs.«402605_j50663434223993_3_alg».proof.Proof.Gen.ReferenceIdeal.Read
import proofs.«402605_j50663434223993_3_alg».proof.Proof.KernelValue
import proofs.«402605_j50663434223993_3_alg».proof.Proof.PreDecode
import proofs.«402605_j50663434223993_3_alg».proof.Proof.RefValue
import Idealize.ShloMosaic.Adequacy
import Idealize.ShloMosaic.Init

noncomputable section

namespace Cert.Proof

open Idealize.ShloMosaic Idealize.SL.Sem

/-- The kernel as printed runs, and leaves its arguments alone. -/
theorem frame_kernel : Cert.frame_Kernel := fun m ρ _ => Cert.Kernel.Gen.frame m ρ

/-- So does the kernel read at the ideal instance, -/
theorem frame_kernel_ideal : Cert.frame_KernelIdeal := fun m ρ _ => Cert.KernelIdeal.Gen.frame m ρ

/-- and the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the segment mean of the flattened
    arguments, and so does the reference's: the label range comes from the precondition. -/
theorem algebraic : Cert.algebraic_KernelIdeal_ReferenceIdeal := by
  intro m ρ m' ρ' hpre hagree
  refine ⟨fun c => Cert.SegMean.mean (Cert.KernelIdeal.SegValue.xf m c) (Cert.KernelIdeal.SegValue.lab m c),
    Cert.KernelIdeal.SegValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  have hl := Cert.PreDecode.labels_lt_of_pre (F := Ideal) _ _ (hpre c)
  exact Cert.ReferenceIdeal.RefValue.reference_eq_mean _ _ hl _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
